-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000 : Shape := ⟨1, ![2000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : IVec S2000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S2000000 : Shape := ⟨1, ![2000000]⟩
abbrev S2000000x1 : Shape := ⟨2, ![2000000, 1]⟩
abbrev S2x128x1 : Shape := ⟨3, ![2, 128, 1]⟩
abbrev S2x128x64 : Shape := ⟨3, ![2, 128, 64]⟩
abbrev S20000x64 : Shape := ⟨2, ![20000, 64]⟩
abbrev S20000x1 : Shape := ⟨2, ![20000, 1]⟩
abbrev S1x128x1 : Shape := ⟨3, ![1, 128, 1]⟩
abbrev S1x128x64 : Shape := ⟨3, ![1, 128, 64]⟩
abbrev S1x128 : Shape := ⟨2, ![1, 128]⟩
abbrev S20000x128 : Shape := ⟨2, ![20000, 128]⟩
abbrev S20000 : Shape := ⟨1, ![20000]⟩
abbrev S128x64 : Shape := ⟨2, ![128, 64]⟩
abbrev S128x1 : Shape := ⟨2, ![128, 1]⟩
abbrev S_ : Shape := ⟨0, ![]⟩
abbrev S128 : Shape := ⟨1, ![128]⟩
abbrev S128x128 : Shape := ⟨2, ![128, 128]⟩
abbrev S64x128 : Shape := ⟨2, ![64, 128]⟩

abbrev nBuf : Space → Nat
  | .hbm => 117
  | .vmem => 10
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S2000000x1, .i32⟩
  | .hbm, ⟨3, _⟩ => ⟨S2x128x1, .f32⟩
  | .hbm, ⟨4, _⟩ => ⟨S2x128x64, .f32⟩
  | .hbm, ⟨5, _⟩ => ⟨S2x128x1, .f32⟩
  | .hbm, ⟨6, _⟩ => ⟨S_, .f32⟩
  | .hbm, ⟨7, _⟩ => ⟨S128x1, .f32⟩
  | .hbm, ⟨8, _⟩ => ⟨S128, .f32⟩
  | .hbm, ⟨9, _⟩ => ⟨S_, .f32⟩
  | .hbm, ⟨10, _⟩ => ⟨S128x64, .f32⟩
  | .hbm, ⟨11, _⟩ => ⟨S_, .f32⟩
  | .hbm, ⟨12, _⟩ => ⟨S128x1, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128x1, .f32⟩
  | .hbm, ⟨18, _⟩ => ⟨S128x64, .f32⟩
  | .hbm, ⟨19, _⟩ => ⟨S128x64, .f32⟩
  | .hbm, ⟨20, _⟩ => ⟨S128, .f32⟩
  | .hbm, ⟨21, _⟩ => ⟨S128x64, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .i1⟩
  | .hbm, ⟨28, _⟩ => ⟨S_, .f32⟩
  | .hbm, ⟨29, _⟩ => ⟨S128, .f32⟩
  | .hbm, ⟨30, _⟩ => ⟨S128, .i1⟩
  | .hbm, ⟨31, _⟩ => ⟨S128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S_, .f32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S128x64, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S1x128, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S_, .f32⟩
  | .hbm, ⟨58, _⟩ => ⟨S128x64, .f32⟩
  | .hbm, ⟨59, _⟩ => ⟨S128x64, .f32⟩
  | .hbm, ⟨60, _⟩ => ⟨S64x128, .f32⟩
  | .hbm, ⟨61, _⟩ => ⟨S128x128, .f32⟩
  | .hbm, ⟨62, _⟩ => ⟨S128x128, .f32⟩
  | .hbm, ⟨63, _⟩ => ⟨S_, .i1⟩
  | .hbm, ⟨64, _⟩ => ⟨S128x128, .i1⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S_, .i1⟩
  | .hbm, ⟨72, _⟩ => ⟨S128x128, .i1⟩
  | .hbm, ⟨73, _⟩ => ⟨S128x128, .i1⟩
  | .hbm, ⟨74, _⟩ => ⟨S128x1, .i1⟩
  | .hbm, ⟨75, _⟩ => ⟨S128x128, .i1⟩
  | .hbm, ⟨76, _⟩ => ⟨S128x128, .i1⟩
  | .hbm, ⟨77, _⟩ => ⟨S1x128, .i1⟩
  | .hbm, ⟨78, _⟩ => ⟨S128x128, .i1⟩
  | .hbm, ⟨79, _⟩ => ⟨S128x128, .i1⟩
  | .hbm, ⟨80, _⟩ => ⟨S_, .f32⟩
  | .hbm, ⟨81, _⟩ => ⟨S128x128, .f32⟩
  | .hbm, ⟨82, _⟩ => ⟨S128x128, .f32⟩
  | .hbm, ⟨83, _⟩ => ⟨S_, .f32⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S128x128, .f32⟩
  | .hbm, ⟨88, _⟩ => ⟨S128x128, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S128x128, .f32⟩
  | .hbm, ⟨96, _⟩ => ⟨S128x128, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .i32⟩
  | .hbm, ⟨101, _⟩ => ⟨S_, .i32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S128, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i1⟩
  | .hbm, ⟨115, _⟩ => ⟨S_, .f32⟩
  | .hbm, ⟨116, _⟩ => ⟨S_, .f32⟩
  | .local _ .vmem, ⟨0, _⟩ => ⟨S20000x64, .f32⟩
  | .local _ .vmem, ⟨1, _⟩ => ⟨S20000x64, .f32⟩
  | .local _ .vmem, ⟨2, _⟩ => ⟨S20000x1, .i32⟩
  | .local _ .vmem, ⟨3, _⟩ => ⟨S20000x1, .i32⟩
  | .local _ .vmem, ⟨4, _⟩ => ⟨S1x128x1, .f32⟩
  | .local _ .vmem, ⟨5, _⟩ => ⟨S1x128x1, .f32⟩
  | .local _ .vmem, ⟨6, _⟩ => ⟨S1x128x64, .f32⟩
  | .local _ .vmem, ⟨7, _⟩ => ⟨S1x128x64, .f32⟩
  | .local _ .vmem, ⟨8, _⟩ => ⟨S1x128x1, .f32⟩
  | .local _ .vmem, ⟨9, _⟩ => ⟨S1x128x1, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_cst_7 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_c_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_cst_11 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_13 : Ref sig .tc := ⟨.hbm, 63, rfl⟩
abbrev main_v41 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_0 : Ref sig .tc := ⟨.hbm, 71, rfl⟩
abbrev main_call2_v5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_cst_15 : Ref sig .tc := ⟨.hbm, 83, rfl⟩
abbrev main_call3_v0 : Ref sig .tc := ⟨.hbm, 84, rfl⟩
abbrev main_call3_v1 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_16 : Ref sig .tc := ⟨.hbm, 89, rfl⟩
abbrev main_v54 : Ref sig .tc := ⟨.hbm, 90, rfl⟩
abbrev main_c_17 : Ref sig .tc := ⟨.hbm, 91, rfl⟩
abbrev main_v55 : Ref sig .tc := ⟨.hbm, 92, rfl⟩
abbrev main_cst_18 : Ref sig .tc := ⟨.hbm, 93, rfl⟩
abbrev main_call4_v0 : Ref sig .tc := ⟨.hbm, 94, rfl⟩
abbrev main_call4_v1 : Ref sig .tc := ⟨.hbm, 95, rfl⟩
abbrev main_v56 : Ref sig .tc := ⟨.hbm, 96, rfl⟩
abbrev main_cst_19 : Ref sig .tc := ⟨.hbm, 97, rfl⟩
abbrev main_v57 : Ref sig .tc := ⟨.hbm, 98, rfl⟩
abbrev main_v58 : Ref sig .tc := ⟨.hbm, 99, rfl⟩
abbrev main_c_20 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_21 : Ref sig .tc := ⟨.hbm, 104, rfl⟩
abbrev main_call5_v0 : Ref sig .tc := ⟨.hbm, 105, rfl⟩
abbrev main_v62 : Ref sig .tc := ⟨.hbm, 106, rfl⟩
abbrev main_cst_22 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_23 : Ref sig .tc := ⟨.hbm, 111, rfl⟩
abbrev main_v66 : Ref sig .tc := ⟨.hbm, 112, rfl⟩
abbrev main_c_24 : Ref sig .tc := ⟨.hbm, 113, rfl⟩
abbrev main_v67 : Ref sig .tc := ⟨.hbm, 114, rfl⟩
abbrev main_cst_25 : Ref sig .tc := ⟨.hbm, 115, rfl⟩
abbrev main_v68 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S20000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2000000_S2000000x1 : S2000000.ShapeCasts S2000000x1
  inb_S1x128x1_S1x128x1_0_0_0 : ∀ a, (![0, 0, 0] : Fin 3 → Nat) a + S1x128x1.size a ≤ S1x128x1.size a
  h_S1x128x1 : 0 < S1x128x1.numel
  inb_S1x128x64_S1x128x64_0_0_0 : ∀ a, (![0, 0, 0] : Fin 3 → Nat) a + S1x128x64.size a ≤ S1x128x64.size a
  h_S1x128x64 : 0 < S1x128x64.numel
  inb_S20000x64_S20000x64_0_0 : ∀ a, (![0, 0] : Fin 2 → Nat) a + S20000x64.size a ≤ S20000x64.size a
  h_S20000x64 : 0 < S20000x64.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S1x128_d1_w32 : S1x128.Iotas .tc 32 [1]
  broadcasts_S20000x1_S20000x128 : S20000x1.Broadcasts S20000x128
  broadcasts_S1x128_S20000x128 : S1x128.Broadcasts S20000x128
  natLt_1_32 : 1 < 32
  bitsLt_bf16_f32 : FTy.bits .bf16 < FTy.bits .f32
  reduces_S20000x64_S20000 : S20000x64.Reduces [1] S20000
  shapeCasts_S20000_S20000x1 : S20000.ShapeCasts S20000x1
  shapeCasts_S1x128x64_S1x128x64 : S1x128x64.ShapeCasts S1x128x64
  shapeCasts_S128x64_S1x128x64 : S128x64.ShapeCasts S1x128x64
  shapeCasts_S1x128x1_S1x128x1 : S1x128x1.ShapeCasts S1x128x1
  shapeCasts_S128x1_S1x128x1 : S128x1.ShapeCasts S1x128x1
  reducesTo_S2x128x1_S128x1_d0 : S2x128x1.ReducesTo [0] S128x1
  h_S_ : 0 < S_.numel
  shapeCasts_S128x1_S128 : S128x1.ShapeCasts S128
  reducesTo_S2x128x64_S128x64_d0 : S2x128x64.ReducesTo [0] S128x64
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  reducesTo_S128x64_S128_d1 : S128x64.ReducesTo [1] S128
  reducesTo_S128_S_d0 : S128.ReducesTo [0] S_
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x64 : S_.BroadcastsInDim S128x64 (![] : Fin 0 → Fin S128x64.rank)
  transposes_S128x64_S64x128_1_0 : S128x64.Transposes [1, 0] S64x128
  bcast_S_S128x128 : S_.BroadcastsInDim S128x128 (![] : Fin 0 → Fin S128x128.rank)
  reducesTo_S128x128_S_d0_1 : S128x128.ReducesTo [0, 1] S_
  dot_S20000x128_S20000x64_S128x64_0_0_1_1_n_n_wf : DotDims.WF S20000x128 S20000x64 S128x64 [0] [0] [1] [1] [] []
  dot_S20000x128_S20000x1_S128x1_0_0_1_1_n_n_wf : DotDims.WF S20000x128 S20000x1 S128x1 [0] [0] [1] [1] [] []
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S2000000x64.size a
  hwx0_0 : ∀ i : grid0.Coords, EltTy.bits .f32 = 32 ∨ (Rect.block (s := S2000000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S2000000x1.size a
  hwx0_1 : ∀ i : grid0.Coords, EltTy.bits .i32 = 32 ∨ (Rect.block (s := S2000000x1) S20000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S2x128x1.size a
  hwx0_2 : ∀ i : grid0.Coords, EltTy.bits .f32 = 32 ∨ (Rect.block (s := S2x128x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S2x128x64.size a
  hwx0_3 : ∀ i : grid0.Coords, EltTy.bits .f32 = 32 ∨ (Rect.block (s := S2x128x64) S1x128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S2x128x1.size a
  hwx0_4 : ∀ i : grid0.Coords, EltTy.bits .f32 = 32 ∨ (Rect.block (s := S2x128x1) S1x128x1.size (cc0_transform_4 i) (hinb0_4 i)).WholeWords (EltTy.packing .f32)

variable [Facts₀]

def dot_S20000x128_S20000x64_S128x64_0_0_1_1_n_n : DotDims S20000x128 S20000x64 S128x64 where
  lhsContracting := [0]
  rhsContracting := [0]
  lhsNonContracting := [1]
  rhsNonContracting := [1]
  lhsBatch := []
  rhsBatch := []
  wf := dot_S20000x128_S20000x64_S128x64_0_0_1_1_n_n_wf
def dot_S20000x128_S20000x1_S128x1_0_0_1_1_n_n : DotDims S20000x128 S20000x1 S128x1 where
  lhsContracting := [0]
  rhsContracting := [0]
  lhsNonContracting := [1]
  rhsNonContracting := [1]
  lhsBatch := []
  rhsBatch := []
  wf := dot_S20000x128_S20000x1_S128x1_0_0_1_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x128x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S2000000 : Shape := ⟨1, ![2000000]⟩
abbrev S_ : Shape := ⟨0, ![]⟩
abbrev S129 : Shape := ⟨1, ![129]⟩
abbrev S2000000x1 : Shape := ⟨2, ![2000000, 1]⟩
abbrev S128 : Shape := ⟨1, ![128]⟩
abbrev S129x64 : Shape := ⟨2, ![129, 64]⟩
abbrev S128x64 : Shape := ⟨2, ![128, 64]⟩
abbrev S128x1 : Shape := ⟨2, ![128, 1]⟩
abbrev S1x128 : Shape := ⟨2, ![1, 128]⟩
abbrev S128x128 : Shape := ⟨2, ![128, 128]⟩
abbrev S64x128 : Shape := ⟨2, ![64, 128]⟩

abbrev nBuf : Space → Nat
  | .hbm => 132
  | .vmem => 0
  | .smem => 0
  | _ => 0

abbrev hbmTy0_0 (i : Nat) : BufTy := match i % 128 with
  | 0 => ⟨S2000000x64, .f32⟩
  | 1 => ⟨S2000000, .i32⟩
  | 2 => ⟨S_, .i32⟩
  | 3 => ⟨S2000000, .i32⟩
  | 4 => ⟨S2000000, .i1⟩
  | 5 => ⟨S_, .i32⟩
  | 6 => ⟨S_, .i32⟩
  | 7 => ⟨S2000000, .i32⟩
  | 8 => ⟨S2000000, .i32⟩
  | 9 => ⟨S_, .f32⟩
  | 10 => ⟨S2000000, .f32⟩
  | 11 => ⟨S_, .f32⟩
  | 12 => ⟨S129, .f32⟩
  | 13 => ⟨S2000000x1, .i32⟩
  | 14 => ⟨S129, .f32⟩
  | 15 => ⟨S128, .f32⟩
  | 16 => ⟨S_, .f32⟩
  | 17 => ⟨S129x64, .f32⟩
  | 18 => ⟨S2000000x1, .i32⟩
  | 19 => ⟨S129x64, .f32⟩
  | 20 => ⟨S128x64, .f32⟩
  | 21 => ⟨S2000000x64, .f32⟩
  | 22 => ⟨S_, .f32⟩
  | 23 => ⟨S2000000, .f32⟩
  | 24 => ⟨S_, .f32⟩
  | 25 => ⟨S129, .f32⟩
  | 26 => ⟨S2000000x1, .i32⟩
  | 27 => ⟨S129, .f32⟩
  | 28 => ⟨S128, .f32⟩
  | 29 => ⟨S_, .f32⟩
  | 30 => ⟨S128, .f32⟩
  | 31 => ⟨S128, .f32⟩
  | 32 => ⟨S128x1, .f32⟩
  | 33 => ⟨S128x64, .f32⟩
  | 34 => ⟨S128x64, .f32⟩
  | 35 => ⟨S128, .f32⟩
  | 36 => ⟨S128x64, .f32⟩
  | 37 => ⟨S_, .f32⟩
  | 38 => ⟨S128, .f32⟩
  | 39 => ⟨S128, .f32⟩
  | 40 => ⟨S_, .f32⟩
  | 41 => ⟨S128, .f32⟩
  | 42 => ⟨S128, .i1⟩
  | 43 => ⟨S_, .f32⟩
  | 44 => ⟨S128, .f32⟩
  | 45 => ⟨S128, .i1⟩
  | 46 => ⟨S128, .i32⟩
  | 47 => ⟨S_, .i32⟩
  | 48 => ⟨S_, .i32⟩
  | 49 => ⟨S_, .i32⟩
  | 50 => ⟨S_, .i1⟩
  | 51 => ⟨S_, .f32⟩
  | 52 => ⟨S_, .f32⟩
  | 53 => ⟨S128, .f32⟩
  | 54 => ⟨S128, .f32⟩
  | 55 => ⟨S_, .f32⟩
  | 56 => ⟨S_, .f32⟩
  | 57 => ⟨S_, .i32⟩
  | 58 => ⟨S_, .i32⟩
  | 59 => ⟨S_, .f32⟩
  | 60 => ⟨S_, .f32⟩
  | 61 => ⟨S_, .f32⟩
  | 62 => ⟨S_, .f32⟩
  | 63 => ⟨S_, .f32⟩
  | 64 => ⟨S128x64, .f32⟩
  | 65 => ⟨S_, .f32⟩
  | 66 => ⟨S128, .f32⟩
  | 67 => ⟨S128x1, .f32⟩
  | 68 => ⟨S1x128, .f32⟩
  | 69 => ⟨S128x128, .f32⟩
  | 70 => ⟨S128x128, .f32⟩
  | 71 => ⟨S128x128, .f32⟩
  | 72 => ⟨S_, .f32⟩
  | 73 => ⟨S128x64, .f32⟩
  | 74 => ⟨S128x64, .f32⟩
  | 75 => ⟨S64x128, .f32⟩
  | 76 => ⟨S128x128, .f32⟩
  | 77 => ⟨S128x128, .f32⟩
  | 78 => ⟨S_, .i1⟩
  | 79 => ⟨S128x128, .i1⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .i1⟩
  | 87 => ⟨S128x128, .i1⟩
  | 88 => ⟨S128x128, .i1⟩
  | 89 => ⟨S128x1, .i1⟩
  | 90 => ⟨S128x128, .i1⟩
  | 91 => ⟨S128x128, .i1⟩
  | 92 => ⟨S1x128, .i1⟩
  | 93 => ⟨S128x128, .i1⟩
  | 94 => ⟨S128x128, .i1⟩
  | 95 => ⟨S_, .f32⟩
  | 96 => ⟨S128x128, .f32⟩
  | 97 => ⟨S128x128, .f32⟩
  | 98 => ⟨S_, .f32⟩
  | 99 => ⟨S_, .f32⟩
  | 100 => ⟨S128x128, .f32⟩
  | 101 => ⟨S128x128, .f32⟩
  | 102 => ⟨S128x128, .f32⟩
  | 103 => ⟨S128x128, .i32⟩
  | 104 => ⟨S_, .i32⟩
  | 105 => ⟨S_, .i32⟩
  | 106 => ⟨S_, .i32⟩
  | 107 => ⟨S_, .i1⟩
  | 108 => ⟨S_, .f32⟩
  | 109 => ⟨S_, .f32⟩
  | 110 => ⟨S128x128, .f32⟩
  | 111 => ⟨S128x128, .f32⟩
  | 112 => ⟨S_, .f32⟩
  | 113 => ⟨S_, .f32⟩
  | 114 => ⟨S_, .f32⟩
  | 115 => ⟨S_, .i32⟩
  | 116 => ⟨S_, .i32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S128, .i32⟩
  | 126 => ⟨S_, .i32⟩
  | 127 => ⟨S_, .i32⟩
  | _ => ⟨S2000000x64, .f32⟩

abbrev hbmTy0_1 (i : Nat) : BufTy := match i % 128 with
  | 0 => ⟨S_, .i32⟩
  | 1 => ⟨S_, .i1⟩
  | 2 => ⟨S_, .f32⟩
  | 3 => ⟨S_, .f32⟩
  | _ => ⟨S2000000x64, .f32⟩

abbrev hbmTy (i : Nat) : BufTy := match i / 128 with
  | 0 => hbmTy0_0 i
  | 1 => hbmTy0_1 i
  | _ => ⟨S2000000x64, .f32⟩

abbrev bufTy : (tb : Table) → Fin (tcTables nBuf tb) → BufTy
  | .hbm, ⟨i, _⟩ => hbmTy i
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_c_10 : Ref sig .tc := ⟨.hbm, 49, rfl⟩
abbrev main_v33 : Ref sig .tc := ⟨.hbm, 50, rfl⟩
abbrev main_cst_11 : Ref sig .tc := ⟨.hbm, 51, rfl⟩
abbrev main_call1_v0 : Ref sig .tc := ⟨.hbm, 52, rfl⟩
abbrev main_call1_v1 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_c_13 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_14 : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩
abbrev main_cst_15 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_16 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_17 : Ref sig .tc := ⟨.hbm, 78, rfl⟩
abbrev main_v52 : Ref sig .tc := ⟨.hbm, 79, rfl⟩
abbrev main_call3_v0 : Ref sig .tc := ⟨.hbm, 80, rfl⟩
abbrev main_call3_c : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_0 : Ref sig .tc := ⟨.hbm, 86, rfl⟩
abbrev main_call3_v5 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_18 : Ref sig .tc := ⟨.hbm, 95, rfl⟩
abbrev main_v60 : Ref sig .tc := ⟨.hbm, 96, rfl⟩
abbrev main_v61 : Ref sig .tc := ⟨.hbm, 97, rfl⟩
abbrev main_cst_19 : Ref sig .tc := ⟨.hbm, 98, rfl⟩
abbrev main_call4_v0 : Ref sig .tc := ⟨.hbm, 99, rfl⟩
abbrev main_call4_v1 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_20 : Ref sig .tc := ⟨.hbm, 104, rfl⟩
abbrev main_v65 : Ref sig .tc := ⟨.hbm, 105, rfl⟩
abbrev main_c_21 : Ref sig .tc := ⟨.hbm, 106, rfl⟩
abbrev main_v66 : Ref sig .tc := ⟨.hbm, 107, rfl⟩
abbrev main_cst_22 : Ref sig .tc := ⟨.hbm, 108, rfl⟩
abbrev main_call5_v0 : Ref sig .tc := ⟨.hbm, 109, rfl⟩
abbrev main_call5_v1 : Ref sig .tc := ⟨.hbm, 110, rfl⟩
abbrev main_v67 : Ref sig .tc := ⟨.hbm, 111, rfl⟩
abbrev main_cst_23 : Ref sig .tc := ⟨.hbm, 112, rfl⟩
abbrev main_v68 : Ref sig .tc := ⟨.hbm, 113, rfl⟩
abbrev main_v69 : Ref sig .tc := ⟨.hbm, 114, rfl⟩
abbrev main_c_24 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_25 : Ref sig .tc := ⟨.hbm, 119, rfl⟩
abbrev main_call6_v0 : Ref sig .tc := ⟨.hbm, 120, rfl⟩
abbrev main_v73 : Ref sig .tc := ⟨.hbm, 121, rfl⟩
abbrev main_cst_26 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_c_27 : Ref sig .tc := ⟨.hbm, 126, rfl⟩
abbrev main_v77 : Ref sig .tc := ⟨.hbm, 127, rfl⟩
abbrev main_c_28 : Ref sig .tc := ⟨.hbm, 128, rfl⟩
abbrev main_v78 : Ref sig .tc := ⟨.hbm, 129, rfl⟩
abbrev main_cst_29 : Ref sig .tc := ⟨.hbm, 130, rfl⟩
abbrev main_v79 : Ref sig .tc := ⟨.hbm, 131, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S129 : S_.BroadcastsInDim S129 (![] : Fin 0 → Fin S129.rank)
  bcast_S2000000_S2000000x1_0 : S2000000.BroadcastsInDim S2000000x1 (![0] : Fin 1 → Fin S2000000x1.rank)
  slices_S129_S128_0 : S129.Slices ![0] S128
  bcast_S_S129x64 : S_.BroadcastsInDim S129x64 (![] : Fin 0 → Fin S129x64.rank)
  slices_S129x64_S128x64_0_0 : S129x64.Slices ![0, 0] S128x64
  reducesTo_S2000000x64_S2000000_d1 : S2000000x64.ReducesTo [1] S2000000
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  reducesTo_S128x64_S128_d1 : S128x64.ReducesTo [1] S128
  natLt_1_32 : 1 < 32
  reducesTo_S128_S_d0 : S128.ReducesTo [0] S_
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x64 : S_.BroadcastsInDim S128x64 (![] : Fin 0 → Fin S128x64.rank)
  transposes_S128x64_S64x128_1_0 : S128x64.Transposes [1, 0] S64x128
  bcast_S_S128x128 : S_.BroadcastsInDim S128x128 (![] : Fin 0 → Fin S128x128.rank)
  reducesTo_S128x128_S_d0_1 : S128x128.ReducesTo [0, 1] S_
  scatter_S129_S2000000x1_S2000000_n_0_0_1_wf : ScatterDims.WF S129 S2000000x1 S2000000 [] [0] [0] 1
  scatter_S129x64_S2000000x1_S2000000x64_1_0_0_1_wf : ScatterDims.WF S129x64 S2000000x1 S2000000x64 [1] [0] [0] 1
  dot_S128x64_S64x128_S128x128_1_0_0_1_n_n_wf : DotDims.WF S128x64 S64x128 S128x128 [1] [0] [0] [1] [] []

variable [Facts₀]

def scatter_S129_S2000000x1_S2000000_n_0_0_1 : ScatterDims S129 S2000000x1 S2000000 where
  updateWindowDims := []
  insertedWindowDims := [0]
  scatterDimsToOperandDims := [0]
  indexVectorDim := 1
  wf := scatter_S129_S2000000x1_S2000000_n_0_0_1_wf
def scatter_S129x64_S2000000x1_S2000000x64_1_0_0_1 : ScatterDims S129x64 S2000000x1 S2000000x64 where
  updateWindowDims := [1]
  insertedWindowDims := [0]
  scatterDimsToOperandDims := [0]
  indexVectorDim := 1
  wf := scatter_S129x64_S2000000x1_S2000000x64_1_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

class Facts : Prop extends Facts₀ where

variable [Facts]
-- ==== Proof.KFrameBase.lean ====
/-
  The launch side of the segment-reduce program's frame, stated once for what every later module uses:
  the buffer contents the one region is entered with (the labels re-laid as a column by the single host line
  before it), the host lines that follow the region and the three facts the launch theorem asks of them
  (they touch unscoped buffers only, allocate nothing, and write none of the five windowed arrays), the
  block each input window shows at a grid point, and how the frame claim's post is read off a frame run:
  the feature array through its window, the label vector because no line before or after the region writes it.
  The grid is 2 x 50: coordinate 0 picks the half of the rows, coordinate 1 the tile of 20000 rows inside it;
  the three outputs are revisited by all 50 tiles of a half and written back after the last one.
-/
import proofs.«416220_j13005160973096_3_alg».proof.Proof.Gen.Kernel.Launch
import proofs.«416220_j13005160973096_3_alg».proof.Proof.Gen.Kernel.Skeleton
import proofs.«416220_j13005160973096_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the one host line before
    the region (the label vector re-laid as a 2000000 x 1 column). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch (a called function's lines are a stretch of their own). -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor

/-- @main is the host line before the region, the region, and the later lines: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only unscoped TensorCore buffers: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop

/-- No line of a stretch writes the buffer `b` when `b` is none of the lines' result buffers. -/
theorem writes_ne_of_forall {ops : List (HloOp τ sig (Elt F))} {b : DevRef τ sig}
    (h : ops.Forall fun op => b ∉ op.writes) : ∀ op ∈ ops, b ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_11_keeps : (hostOps1_11 : List (HloOp τ sig (Elt F))).Forall fun op => ∀ w, Proc.devRef .tc (Pipeline.arrRef spec0 w) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_12_keeps : (hostOps1_12 : List (HloOp τ sig (Elt F))).Forall fun op => ∀ w, Proc.devRef .tc (Pipeline.arrRef spec0 w) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_13_keeps : (hostOps1_13 : List (HloOp τ sig (Elt F))).Forall fun op => ∀ w, Proc.devRef .tc (Pipeline.arrRef spec0 w) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And they write no array of the pipeline (each writes only its own result buffer). -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop

/-- The one host line before the region writes the label column, not the feature array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the label vector itself. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_arg1 : (hostOps1_1 : List (HloOp τ sig (Elt F))).Forall fun op => Proc.devRef .tc main_arg1 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_arg1 : (hostOps1_2 : List (HloOp τ sig (Elt F))).Forall fun op => Proc.devRef .tc main_arg1 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_arg1 : (hostOps1_3 : List (HloOp τ sig (Elt F))).Forall fun op => Proc.devRef .tc main_arg1 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_arg1 : (hostOps1_4 : List (HloOp τ sig (Elt F))).Forall fun op => Proc.devRef .tc main_arg1 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_arg1 : (hostOps1_5 : List (HloOp τ sig (Elt F))).Forall fun op => Proc.devRef .tc main_arg1 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_arg1 : (hostOps1_6 : List (HloOp τ sig (Elt F))).Forall fun op => Proc.devRef .tc main_arg1 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_arg1 : (hostOps1_7 : List (HloOp τ sig (Elt F))).Forall fun op => Proc.devRef .tc main_arg1 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_arg1 : (hostOps1_8 : List (HloOp τ sig (Elt F))).Forall fun op => Proc.devRef .tc main_arg1 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_arg1 : (hostOps1_9 : List (HloOp τ sig (Elt F))).Forall fun op => Proc.devRef .tc main_arg1 ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_arg1 : (hostOps1_10 : List (HloOp τ sig (Elt F))).Forall fun op => Proc.devRef .tc main_arg1 ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_arg1 : (hostOps1_11 : List (HloOp τ sig (Elt F))).Forall fun op => Proc.devRef .tc main_arg1 ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_arg1 : (hostOps1_12 : List (HloOp τ sig (Elt F))).Forall fun op => Proc.devRef .tc main_arg1 ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_arg1 : (hostOps1_13 : List (HloOp τ sig (Elt F))).Forall fun op => Proc.devRef .tc main_arg1 ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No host line after the region writes the label vector: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, hops, hop⟩ := List.mem_flatten.mp hop
      simp only [tailOps, List.mem_cons, List.mem_nil_iff, or_false] at hops
      rcases hops with rfl | rfl | rfl | rfl | rfl | rfl | rfl | rfl | rfl | rfl | rfl | rfl | rfl | rfl
      · exact (List.forall_iff_forall_mem.mp hostOps1_arg1) op hop
      · exact (List.forall_iff_forall_mem.mp hostOps1_1_arg1) op hop
      · exact (List.forall_iff_forall_mem.mp hostOps1_2_arg1) op hop
      · exact (List.forall_iff_forall_mem.mp hostOps1_3_arg1) op hop
      · exact (List.forall_iff_forall_mem.mp hostOps1_4_arg1) op hop
      · exact (List.forall_iff_forall_mem.mp hostOps1_5_arg1) op hop
      · exact (List.forall_iff_forall_mem.mp hostOps1_6_arg1) op hop
      · exact (List.forall_iff_forall_mem.mp hostOps1_7_arg1) op hop
      · exact (List.forall_iff_forall_mem.mp hostOps1_8_arg1) op hop
      · exact (List.forall_iff_forall_mem.mp hostOps1_9_arg1) op hop
      · exact (List.forall_iff_forall_mem.mp hostOps1_10_arg1) op hop
      · exact (List.forall_iff_forall_mem.mp hostOps1_11_arg1) op hop
      · exact (List.forall_iff_forall_mem.mp hostOps1_12_arg1) op hop
      · exact (List.forall_iff_forall_mem.mp hostOps1_13_arg1) op hop),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's current staging buffer holds its tile of 20000 rows at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The label window's current staging buffer holds its tile of 20000 labels at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a frame run's post read at the two argument arrays
    is the frame claim's: the feature array is window 0's, an input, so it ends at its entry contents; the label
    vector is no window's array, bypasses the region, and no later line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's one branch -/

/-- The condition of the body's `scf.if`: the tile coordinate is 0 (the first tile of a half resets the accumulators). -/
abbrev cond0_0 (i : grid0.Coords) : Prop := (Scalar.cmpi .ne (Scalar.extui (Scalar.cmpi .eq (BitVec.ofNat 32 (i 1).val) 0#32)) 0#32) = 1#1
/-- It holds at the points 0 and 50: decided over the grid. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## The staging memrefs the body is called with -/

/-- One staging buffer of each output window, through which its contents are stated. -/
abbrev VO0_2 : View sig .tc .vmem S1x128x1 .f32 := (Memref.whole cc0_stg2_0 : Memref sig .tc .vmem S1x128x1 .f32).view
abbrev VO0_3 : View sig .tc .vmem S1x128x64 .f32 := (Memref.whole cc0_stg3_0 : Memref sig .tc .vmem S1x128x64 .f32).view
abbrev VO0_4 : View sig .tc .vmem S1x128x1 .f32 := (Memref.whole cc0_stg4_0 : Memref sig .tc .vmem S1x128x1 .f32).view
/-- Each window's current staging memref at point `t`, as the pipeline passes it, and its wholeness. -/
abbrev ms0_0 (t : Fin cfg0.N) : Memref sig .tc .vmem S20000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S20000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x1 .f32 := win0_4.stage (cfg0.slots t 4)
abbrev hs0_4 (t : Fin cfg0.N) : (ms0_4 t).IsWhole := hstage0_4 ((cfg0.slots t 4).cast nbuf0_4)

end Cert.Kernel.Frm

end
-- ==== Proof.KRunA.lean ====
/-
  The kernel body run whole at a grid point where the tile coordinate is 0, the first tile of a half: the three
  accumulators are reset to zero and then take this tile's contribution. Whatever the output buffers held is
  overwritten, so the run takes them at any contents; it leaves the two input buffers as they were and each output
  buffer with the stores the body made to it, listed last first.
-/
import proofs.«416220_j13005160973096_3_alg».proof.Proof.KFrameBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's staging memref when the reset branch is taken, with the proof that
    on whole staging memrefs the body runs to the continuation holding the inputs as they were and each accumulator
    with those stores written. -/
noncomputable def kernelRun0_A (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) :
    Σ' (L2 : List (View.Piece (Elt F) S1x128x1 .f32)), Σ' (L3 : List (View.Piece (Elt F) S1x128x64 .f32)), { L4 : List (View.Piece (Elt F) S1x128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__seg_reduce_kernel i arg2 harg2 arg3 harg3 arg4 harg4 arg5 harg5 arg6 harg6) K } := by
  refine ⟨?_, ?_, ?_, fun E K => ?run⟩
  case run =>
    simp only [cc0__seg_reduce_kernel_eq_skeleton]; unfold cc0__seg_reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Frm

end
-- ==== Proof.KRunB.lean ====
/-
  The kernel body run whole at a grid point where the tile coordinate is not 0: nothing is reset, and each of the
  three accumulators is read and stored back with this tile's contribution added. The run therefore takes the output
  buffers at the contents the tile before left in them; it leaves the two input buffers as they were and each
  output buffer with the one store the body made to it.
-/
import proofs.«416220_j13005160973096_3_alg».proof.Proof.KRunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's staging memref when the reset branch is not taken, with the proof
    that on whole staging memrefs — the accumulators at their running contents — the body runs to the continuation holding
    the inputs as they were and each accumulator with those stores written. -/
noncomputable def kernelRun0_B (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) :
    Σ' (L2 : List (View.Piece (Elt F) S1x128x1 .f32)), Σ' (L3 : List (View.Piece (Elt F) S1x128x64 .f32)), { L4 : List (View.Piece (Elt F) S1x128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__seg_reduce_kernel i arg2 harg2 arg3 harg3 arg4 harg4 arg5 harg5 arg6 harg6) K } := by
  refine ⟨?_, ?_, ?_, fun E K => ?run⟩
  case run =>
    simp only [cc0__seg_reduce_kernel_eq_skeleton]; unfold cc0__seg_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Frm

end
-- ==== Proof.KFrame.lean ====
/-
  The frame of the segment-reduce program: what the three accumulator windows hold after every grid point, the proof
  data of the one pipeline, the body obligation, the frame run and the frame claim.
  At a point whose tile coordinate is 0 the body resets the accumulators and adds the tile's contribution; at every
  other point it adds the tile's contribution to what the point before left, which is still in the staging buffer
  because an accumulator's block index depends on the half only and the buffer is written back after the half's last
  tile. So the contents after point `n` are defined by recursion on `n`, restarting at the points 0 and 50.
-/
import proofs.«416220_j13005160973096_3_alg».proof.Proof.KRunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each accumulator's staging buffer -/

/-- The reset case's stores to accumulator 2 tile its block, so they cover it. -/
theorem cover0_A_2 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) (y : S1x128x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x128x1.size (by sl_kernel_rfl) y

/-- What the reset case leaves in accumulator 2's staging buffer: its stores read back. -/
def out0_A_2 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) : Vec F S1x128x1 .f32 :=
  VO0_2.read (Elt F) (VO0_2.writes (Elt F) VO0_2.junk (kernelRun0_A c i arg2 harg2 arg3 harg3 arg4 harg4 arg5 harg5 arg6 harg6 hc0 x0 x1).1)

/-- The add case's store to accumulator 2 is its whole block, so it covers it. -/
theorem cover0_B_2 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) (y : S1x128x1.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x128x1.size (by sl_kernel_rfl) y

/-- What the add case leaves in accumulator 2's staging buffer: its store read back. -/
def out0_B_2 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) : Vec F S1x128x1 .f32 :=
  VO0_2.read (Elt F) (VO0_2.writes (Elt F) VO0_2.junk (kernelRun0_B c i arg2 harg2 arg3 harg3 arg4 harg4 arg5 harg5 arg6 harg6 hc0 x0 x1 xo2 xo3 xo4).1)

/-- The reset case's stores to accumulator 3 tile its block, so they cover it. -/
theorem cover0_A_3 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) (y : S1x128x64.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x128x64.size (by sl_kernel_rfl) y

/-- What the reset case leaves in accumulator 3's staging buffer: its stores read back. -/
def out0_A_3 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) : Vec F S1x128x64 .f32 :=
  VO0_3.read (Elt F) (VO0_3.writes (Elt F) VO0_3.junk (kernelRun0_A c i arg2 harg2 arg3 harg3 arg4 harg4 arg5 harg5 arg6 harg6 hc0 x0 x1).2.1)

/-- The add case's store to accumulator 3 is its whole block, so it covers it. -/
theorem cover0_B_3 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) (y : S1x128x64.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x128x64.size (by sl_kernel_rfl) y

/-- What the add case leaves in accumulator 3's staging buffer: its store read back. -/
def out0_B_3 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) : Vec F S1x128x64 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- The reset case's stores to accumulator 4 tile its block, so they cover it. -/
theorem cover0_A_4 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) (y : S1x128x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x128x1.size (by sl_kernel_rfl) y

/-- What the reset case leaves in accumulator 4's staging buffer: its stores read back. -/
def out0_A_4 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) : Vec F S1x128x1 .f32 :=
  VO0_4.read (Elt F) (VO0_4.writes (Elt F) VO0_4.junk (kernelRun0_A c i arg2 harg2 arg3 harg3 arg4 harg4 arg5 harg5 arg6 harg6 hc0 x0 x1).2.2.1)

/-- The add case's store to accumulator 4 is its whole block, so it covers it. -/
theorem cover0_B_4 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) (y : S1x128x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x128x1.size (by sl_kernel_rfl) y

/-- What the add case leaves in accumulator 4's staging buffer: its store read back. -/
def out0_B_4 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) : Vec F S1x128x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the accumulators hold after each point -/

/-- The three accumulators' staging contents after the body at position `n`: the reset case at the points 0 and 50,
    the add case elsewhere over what position `n - 1` left. -/
def outsAt0 (c : Dev nD) : (n : ℕ) → n < cfg0.N → Vec F S1x128x1 .f32 × Vec F S1x128x64 .f32 × Vec F S1x128x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 50 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of the reset case. -/
theorem outsAt0_A (c : Dev nD) (t : Fin cfg0.N) (h0 : t.val % 50 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at a point of the add case: over what the point before left. -/
theorem outsAt0_B (c : Dev nD) (t : Fin cfg0.N) (h0 : ¬t.val % 50 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the accumulators' at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point of the add case accumulator 2's current staging buffer holds what the body left at the point before:
    the point is not the first, the buffer was not written back between, the window is live and uncut. -/
theorem before0_2_B (c : Dev nD) (t : Fin cfg0.N) (h0 : ¬t.val % 50 = 0) (d) :
    (dats m 0 c).before 2 t d = (outsAt0 m c (t.val - 1) (Nat.lt_of_le_of_lt (Nat.sub_le _ _) t.isLt)).1 := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (fun _ => rfl) (fun _ _ => rfl)]
  dsimp only [dats]
/-- At a point of the add case accumulator 3's current staging buffer holds what the body left at the point before:
    the point is not the first, the buffer was not written back between, the window is live and uncut. -/
theorem before0_3_B (c : Dev nD) (t : Fin cfg0.N) (h0 : ¬t.val % 50 = 0) (d) :
    (dats m 0 c).before 3 t d = (outsAt0 m c (t.val - 1) (Nat.lt_of_le_of_lt (Nat.sub_le _ _) t.isLt)).2.1 := by
  have hN : t.val < 100 := lt_of_lt_of_eq t.isLt (show cfg0.N = 100 from N_0)
  rw [Dat.before_out_kept _ 3 rfl t (by omega) (Bool.eq_false_iff.mpr fun h => by have := (flush0_3 _).mp h; dsimp only at this; omega)
    (fun _ => rfl) (fun _ _ => rfl)]
  dsimp only [dats]
/-- At a point of the add case accumulator 4's current staging buffer holds what the body left at the point before:
    the point is not the first, the buffer was not written back between, the window is live and uncut. -/
theorem before0_4_B (c : Dev nD) (t : Fin cfg0.N) (h0 : ¬t.val % 50 = 0) (d) :
    (dats m 0 c).before 4 t d = (outsAt0 m c (t.val - 1) (Nat.lt_of_le_of_lt (Nat.sub_le _ _) t.isLt)).2.2 := by
  have hN : t.val < 100 := lt_of_lt_of_eq t.isLt (show cfg0.N = 100 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form of the branch condition says which
    case the point is in; in the add case each accumulator holds what the point before left; so that case's run applies;
    the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 100 := lt_of_lt_of_eq t.isLt (show cfg0.N = 100 from N_0)
  by_cases h0 : t.val % 50 = 0
  · rw [outsAt0_A m c t h0]
    dsimp only
    unfold out0_A_2 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    dsimp only
    simp only [before0_2_B m c t h0, before0_3_B m c t h0, before0_4_B m c t h0]
    unfold out0_B_2 out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The run with the result named too: the scalar result ends at what the lines after the region compute from the three
    arrays the region leaves; the arguments end unchanged. -/
theorem run_full : θ_run defs (onTc (τ := τ) (main (F := F))) ⟨m, fun _ => 0, ρ⟩ (fun r => ∀ c : Dev nD,
      r.2.mem ((c.tc : Thread nD τ).loc main_v68) = Pipeline.afterTail₀ cfgs (dats m) 0 (V0 m) tailOps c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v68 (Pipeline.mem_restRefs_of main_v68 (by decide) (by decide)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m ρ)

end Cert.Kernel.Frm

end
-- ==== Proof.KIFrameBase.lean ====
/-
  The launch side of the segment-reduce program's frame, stated once for what every later module uses:
  the buffer contents the one region is entered with (the labels re-laid as a column by the single host line
  before it), the host lines that follow the region and the three facts the launch theorem asks of them
  (they touch unscoped buffers only, allocate nothing, and write none of the five windowed arrays), the
  block each input window shows at a grid point, and how the frame claim's post is read off a frame run:
  the feature array through its window, the label vector because no line before or after the region writes it.
  The grid is 2 x 50: coordinate 0 picks the half of the rows, coordinate 1 the tile of 20000 rows inside it;
  the three outputs are revisited by all 50 tiles of a half and written back after the last one.
-/
import proofs.«416220_j13005160973096_3_alg».proof.Proof.Gen.KernelIdeal.Launch
import proofs.«416220_j13005160973096_3_alg».proof.Proof.Gen.KernelIdeal.Skeleton
import proofs.«416220_j13005160973096_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the one host line before
    the region (the label vector re-laid as a 2000000 x 1 column). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch (a called function's lines are a stretch of their own). -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor

/-- @main is the host line before the region, the region, and the later lines: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only unscoped TensorCore buffers: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop

/-- No line of a stretch writes the buffer `b` when `b` is none of the lines' result buffers. -/
theorem writes_ne_of_forall {ops : List (HloOp τ sig (Elt F))} {b : DevRef τ sig}
    (h : ops.Forall fun op => b ∉ op.writes) : ∀ op ∈ ops, b ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_11_keeps : (hostOps1_11 : List (HloOp τ sig (Elt F))).Forall fun op => ∀ w, Proc.devRef .tc (Pipeline.arrRef spec0 w) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_12_keeps : (hostOps1_12 : List (HloOp τ sig (Elt F))).Forall fun op => ∀ w, Proc.devRef .tc (Pipeline.arrRef spec0 w) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_13_keeps : (hostOps1_13 : List (HloOp τ sig (Elt F))).Forall fun op => ∀ w, Proc.devRef .tc (Pipeline.arrRef spec0 w) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And they write no array of the pipeline (each writes only its own result buffer). -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop

/-- The one host line before the region writes the label column, not the feature array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the label vector itself. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_arg1 : (hostOps1_1 : List (HloOp τ sig (Elt F))).Forall fun op => Proc.devRef .tc main_arg1 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_arg1 : (hostOps1_2 : List (HloOp τ sig (Elt F))).Forall fun op => Proc.devRef .tc main_arg1 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_arg1 : (hostOps1_3 : List (HloOp τ sig (Elt F))).Forall fun op => Proc.devRef .tc main_arg1 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_arg1 : (hostOps1_4 : List (HloOp τ sig (Elt F))).Forall fun op => Proc.devRef .tc main_arg1 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_arg1 : (hostOps1_5 : List (HloOp τ sig (Elt F))).Forall fun op => Proc.devRef .tc main_arg1 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_arg1 : (hostOps1_6 : List (HloOp τ sig (Elt F))).Forall fun op => Proc.devRef .tc main_arg1 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_arg1 : (hostOps1_7 : List (HloOp τ sig (Elt F))).Forall fun op => Proc.devRef .tc main_arg1 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_arg1 : (hostOps1_8 : List (HloOp τ sig (Elt F))).Forall fun op => Proc.devRef .tc main_arg1 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_arg1 : (hostOps1_9 : List (HloOp τ sig (Elt F))).Forall fun op => Proc.devRef .tc main_arg1 ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_arg1 : (hostOps1_10 : List (HloOp τ sig (Elt F))).Forall fun op => Proc.devRef .tc main_arg1 ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_arg1 : (hostOps1_11 : List (HloOp τ sig (Elt F))).Forall fun op => Proc.devRef .tc main_arg1 ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_arg1 : (hostOps1_12 : List (HloOp τ sig (Elt F))).Forall fun op => Proc.devRef .tc main_arg1 ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_arg1 : (hostOps1_13 : List (HloOp τ sig (Elt F))).Forall fun op => Proc.devRef .tc main_arg1 ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No host line after the region writes the label vector: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, hops, hop⟩ := List.mem_flatten.mp hop
      simp only [tailOps, List.mem_cons, List.mem_nil_iff, or_false] at hops
      rcases hops with rfl | rfl | rfl | rfl | rfl | rfl | rfl | rfl | rfl | rfl | rfl | rfl | rfl | rfl
      · exact (List.forall_iff_forall_mem.mp hostOps1_arg1) op hop
      · exact (List.forall_iff_forall_mem.mp hostOps1_1_arg1) op hop
      · exact (List.forall_iff_forall_mem.mp hostOps1_2_arg1) op hop
      · exact (List.forall_iff_forall_mem.mp hostOps1_3_arg1) op hop
      · exact (List.forall_iff_forall_mem.mp hostOps1_4_arg1) op hop
      · exact (List.forall_iff_forall_mem.mp hostOps1_5_arg1) op hop
      · exact (List.forall_iff_forall_mem.mp hostOps1_6_arg1) op hop
      · exact (List.forall_iff_forall_mem.mp hostOps1_7_arg1) op hop
      · exact (List.forall_iff_forall_mem.mp hostOps1_8_arg1) op hop
      · exact (List.forall_iff_forall_mem.mp hostOps1_9_arg1) op hop
      · exact (List.forall_iff_forall_mem.mp hostOps1_10_arg1) op hop
      · exact (List.forall_iff_forall_mem.mp hostOps1_11_arg1) op hop
      · exact (List.forall_iff_forall_mem.mp hostOps1_12_arg1) op hop
      · exact (List.forall_iff_forall_mem.mp hostOps1_13_arg1) op hop),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's current staging buffer holds its tile of 20000 rows at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The label window's current staging buffer holds its tile of 20000 labels at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a frame run's post read at the two argument arrays
    is the frame claim's: the feature array is window 0's, an input, so it ends at its entry contents; the label
    vector is no window's array, bypasses the region, and no later line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's one branch -/

/-- The condition of the body's `scf.if`: the tile coordinate is 0 (the first tile of a half resets the accumulators). -/
abbrev cond0_0 (i : grid0.Coords) : Prop := (Scalar.cmpi .ne (Scalar.extui (Scalar.cmpi .eq (BitVec.ofNat 32 (i 1).val) 0#32)) 0#32) = 1#1
/-- It holds at the points 0 and 50: decided over the grid. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## The staging memrefs the body is called with -/

/-- One staging buffer of each output window, through which its contents are stated. -/
abbrev VO0_2 : View sig .tc .vmem S1x128x1 .f32 := (Memref.whole cc0_stg2_0 : Memref sig .tc .vmem S1x128x1 .f32).view
abbrev VO0_3 : View sig .tc .vmem S1x128x64 .f32 := (Memref.whole cc0_stg3_0 : Memref sig .tc .vmem S1x128x64 .f32).view
abbrev VO0_4 : View sig .tc .vmem S1x128x1 .f32 := (Memref.whole cc0_stg4_0 : Memref sig .tc .vmem S1x128x1 .f32).view
/-- Each window's current staging memref at point `t`, as the pipeline passes it, and its wholeness. -/
abbrev ms0_0 (t : Fin cfg0.N) : Memref sig .tc .vmem S20000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S20000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x1 .f32 := win0_4.stage (cfg0.slots t 4)
abbrev hs0_4 (t : Fin cfg0.N) : (ms0_4 t).IsWhole := hstage0_4 ((cfg0.slots t 4).cast nbuf0_4)

end Cert.KernelIdeal.Frm

end
-- ==== Proof.KIRunA.lean ====
/-
  The kernel body run whole at a grid point where the tile coordinate is 0, the first tile of a half: the three
  accumulators are reset to zero and then take this tile's contribution. Whatever the output buffers held is
  overwritten, so the run takes them at any contents; it leaves the two input buffers as they were and each output
  buffer with the stores the body made to it, listed last first.
-/
import proofs.«416220_j13005160973096_3_alg».proof.Proof.KIFrameBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's staging memref when the reset branch is taken, with the proof that
    on whole staging memrefs the body runs to the continuation holding the inputs as they were and each accumulator
    with those stores written. -/
noncomputable def kernelRun0_A (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) :
    Σ' (L2 : List (View.Piece (Elt F) S1x128x1 .f32)), Σ' (L3 : List (View.Piece (Elt F) S1x128x64 .f32)), { L4 : List (View.Piece (Elt F) S1x128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__seg_reduce_kernel i arg2 harg2 arg3 harg3 arg4 harg4 arg5 harg5 arg6 harg6) K } := by
  refine ⟨?_, ?_, ?_, fun E K => ?run⟩
  case run =>
    simp only [cc0__seg_reduce_kernel_eq_skeleton]; unfold cc0__seg_reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Frm

end
-- ==== Proof.KIRunB.lean ====
/-
  The kernel body run whole at a grid point where the tile coordinate is not 0: nothing is reset, and each of the
  three accumulators is read and stored back with this tile's contribution added. The run therefore takes the output
  buffers at the contents the tile before left in them; it leaves the two input buffers as they were and each
  output buffer with the one store the body made to it.
-/
import proofs.«416220_j13005160973096_3_alg».proof.Proof.KIRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's staging memref when the reset branch is not taken, with the proof
    that on whole staging memrefs — the accumulators at their running contents — the body runs to the continuation holding
    the inputs as they were and each accumulator with those stores written. -/
noncomputable def kernelRun0_B (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) :
    Σ' (L2 : List (View.Piece (Elt F) S1x128x1 .f32)), Σ' (L3 : List (View.Piece (Elt F) S1x128x64 .f32)), { L4 : List (View.Piece (Elt F) S1x128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__seg_reduce_kernel i arg2 harg2 arg3 harg3 arg4 harg4 arg5 harg5 arg6 harg6) K } := by
  refine ⟨?_, ?_, ?_, fun E K => ?run⟩
  case run =>
    simp only [cc0__seg_reduce_kernel_eq_skeleton]; unfold cc0__seg_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Frm

end
-- ==== Proof.KIFrame.lean ====
/-
  The frame of the segment-reduce program: what the three accumulator windows hold after every grid point, the proof
  data of the one pipeline, the body obligation, the frame run and the frame claim.
  At a point whose tile coordinate is 0 the body resets the accumulators and adds the tile's contribution; at every
  other point it adds the tile's contribution to what the point before left, which is still in the staging buffer
  because an accumulator's block index depends on the half only and the buffer is written back after the half's last
  tile. So the contents after point `n` are defined by recursion on `n`, restarting at the points 0 and 50.
-/
import proofs.«416220_j13005160973096_3_alg».proof.Proof.KIRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each accumulator's staging buffer -/

/-- The reset case's stores to accumulator 2 tile its block, so they cover it. -/
theorem cover0_A_2 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) (y : S1x128x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x128x1.size (by sl_kernel_rfl) y

/-- What the reset case leaves in accumulator 2's staging buffer: its stores read back. -/
def out0_A_2 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) : Vec F S1x128x1 .f32 :=
  VO0_2.read (Elt F) (VO0_2.writes (Elt F) VO0_2.junk (kernelRun0_A c i arg2 harg2 arg3 harg3 arg4 harg4 arg5 harg5 arg6 harg6 hc0 x0 x1).1)

/-- The add case's store to accumulator 2 is its whole block, so it covers it. -/
theorem cover0_B_2 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) (y : S1x128x1.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x128x1.size (by sl_kernel_rfl) y

/-- What the add case leaves in accumulator 2's staging buffer: its store read back. -/
def out0_B_2 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) : Vec F S1x128x1 .f32 :=
  VO0_2.read (Elt F) (VO0_2.writes (Elt F) VO0_2.junk (kernelRun0_B c i arg2 harg2 arg3 harg3 arg4 harg4 arg5 harg5 arg6 harg6 hc0 x0 x1 xo2 xo3 xo4).1)

/-- The reset case's stores to accumulator 3 tile its block, so they cover it. -/
theorem cover0_A_3 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) (y : S1x128x64.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x128x64.size (by sl_kernel_rfl) y

/-- What the reset case leaves in accumulator 3's staging buffer: its stores read back. -/
def out0_A_3 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) : Vec F S1x128x64 .f32 :=
  VO0_3.read (Elt F) (VO0_3.writes (Elt F) VO0_3.junk (kernelRun0_A c i arg2 harg2 arg3 harg3 arg4 harg4 arg5 harg5 arg6 harg6 hc0 x0 x1).2.1)

/-- The add case's store to accumulator 3 is its whole block, so it covers it. -/
theorem cover0_B_3 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) (y : S1x128x64.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x128x64.size (by sl_kernel_rfl) y

/-- What the add case leaves in accumulator 3's staging buffer: its store read back. -/
def out0_B_3 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) : Vec F S1x128x64 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- The reset case's stores to accumulator 4 tile its block, so they cover it. -/
theorem cover0_A_4 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) (y : S1x128x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x128x1.size (by sl_kernel_rfl) y

/-- What the reset case leaves in accumulator 4's staging buffer: its stores read back. -/
def out0_A_4 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) : Vec F S1x128x1 .f32 :=
  VO0_4.read (Elt F) (VO0_4.writes (Elt F) VO0_4.junk (kernelRun0_A c i arg2 harg2 arg3 harg3 arg4 harg4 arg5 harg5 arg6 harg6 hc0 x0 x1).2.2.1)

/-- The add case's store to accumulator 4 is its whole block, so it covers it. -/
theorem cover0_B_4 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) (y : S1x128x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x128x1.size (by sl_kernel_rfl) y

/-- What the add case leaves in accumulator 4's staging buffer: its store read back. -/
def out0_B_4 (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) : Vec F S1x128x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the accumulators hold after each point -/

/-- The three accumulators' staging contents after the body at position `n`: the reset case at the points 0 and 50,
    the add case elsewhere over what position `n - 1` left. -/
def outsAt0 (c : Dev nD) : (n : ℕ) → n < cfg0.N → Vec F S1x128x1 .f32 × Vec F S1x128x64 .f32 × Vec F S1x128x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 50 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of the reset case. -/
theorem outsAt0_A (c : Dev nD) (t : Fin cfg0.N) (h0 : t.val % 50 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at a point of the add case: over what the point before left. -/
theorem outsAt0_B (c : Dev nD) (t : Fin cfg0.N) (h0 : ¬t.val % 50 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the accumulators' at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point of the add case accumulator 2's current staging buffer holds what the body left at the point before:
    the point is not the first, the buffer was not written back between, the window is live and uncut. -/
theorem before0_2_B (c : Dev nD) (t : Fin cfg0.N) (h0 : ¬t.val % 50 = 0) (d) :
    (dats m 0 c).before 2 t d = (outsAt0 m c (t.val - 1) (Nat.lt_of_le_of_lt (Nat.sub_le _ _) t.isLt)).1 := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (fun _ => rfl) (fun _ _ => rfl)]
  dsimp only [dats]
/-- At a point of the add case accumulator 3's current staging buffer holds what the body left at the point before:
    the point is not the first, the buffer was not written back between, the window is live and uncut. -/
theorem before0_3_B (c : Dev nD) (t : Fin cfg0.N) (h0 : ¬t.val % 50 = 0) (d) :
    (dats m 0 c).before 3 t d = (outsAt0 m c (t.val - 1) (Nat.lt_of_le_of_lt (Nat.sub_le _ _) t.isLt)).2.1 := by
  have hN : t.val < 100 := lt_of_lt_of_eq t.isLt (show cfg0.N = 100 from N_0)
  rw [Dat.before_out_kept _ 3 rfl t (by omega) (Bool.eq_false_iff.mpr fun h => by have := (flush0_3 _).mp h; dsimp only at this; omega)
    (fun _ => rfl) (fun _ _ => rfl)]
  dsimp only [dats]
/-- At a point of the add case accumulator 4's current staging buffer holds what the body left at the point before:
    the point is not the first, the buffer was not written back between, the window is live and uncut. -/
theorem before0_4_B (c : Dev nD) (t : Fin cfg0.N) (h0 : ¬t.val % 50 = 0) (d) :
    (dats m 0 c).before 4 t d = (outsAt0 m c (t.val - 1) (Nat.lt_of_le_of_lt (Nat.sub_le _ _) t.isLt)).2.2 := by
  have hN : t.val < 100 := lt_of_lt_of_eq t.isLt (show cfg0.N = 100 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form of the branch condition says which
    case the point is in; in the add case each accumulator holds what the point before left; so that case's run applies;
    the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 100 := lt_of_lt_of_eq t.isLt (show cfg0.N = 100 from N_0)
  by_cases h0 : t.val % 50 = 0
  · rw [outsAt0_A m c t h0]
    dsimp only
    unfold out0_A_2 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    dsimp only
    simp only [before0_2_B m c t h0, before0_3_B m c t h0, before0_4_B m c t h0]
    unfold out0_B_2 out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The run with the result named too: the scalar result ends at what the lines after the region compute from the three
    arrays the region leaves; the arguments end unchanged. -/
theorem run_full : θ_run defs (onTc (τ := τ) (main (F := F))) ⟨m, fun _ => 0, ρ⟩ (fun r => ∀ c : Dev nD,
      r.2.mem ((c.tc : Thread nD τ).loc main_v68) = Pipeline.afterTail₀ cfgs (dats m) 0 (V0 m) tailOps c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v68 (Pipeline.mem_restRefs_of main_v68 (by decide) (by decide)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m ρ)

end Cert.KernelIdeal.Frm

end
-- ==== Proof.KIPieces.lean ====
/-
  What each case of the kernel body leaves in each accumulator, as the body's own arithmetic.
  Every store of the body writes a whole block, so the contents of an accumulator's buffer after the body are the
  value of its last store. In the reset case that value is computed from the zero block the reset stored just before
  (the accumulator is read back after the reset); in the add case from the contents the buffer came with.
-/
import proofs.«416220_j13005160973096_3_alg».proof.Proof.KIFrame
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 block, as the constant function. -/
private theorem hz2 : (![0, 0] : Fin 2 → Nat) = fun _ => 0 := funext fun a => by fin_cases a <;> rfl

/-- The zero offsets of a rank-3 block, as the constant function. -/
private theorem hz3 : (![0, 0, 0] : Fin 3 → Nat) = fun _ => 0 := funext fun a => by fin_cases a <;> rfl

/-! ## The reset case: the zero block is stored, read back, and the tile's contribution added to it

The later of the two stores covers the block, so the contents are its payload; the accumulator value that payload was
computed from is a read, through the whole block, of what the reset store alone had left, which is the zero block. -/

theorem out0_A_2_eq (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) :
    out0_A_2 (F := F) c i arg2 harg2 arg3 harg3 arg4 harg4 arg5 harg5 arg6 harg6 hc0 x0 x1 = k0_pay1 (k0_pay6 x1) (k0_pay2 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread,
    View.ld_unit_zero (S := S20000x64) hz2, View.ld_unit_zero (S := S20000x1) hz2, View.ld_unit_zero (S := S1x128x1) hz3,
    View.readCov_unit_zero (S := S1x128x1) _ hz3]

theorem out0_A_3_eq (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) :
    out0_A_3 (F := F) c i arg2 harg2 arg3 harg3 arg4 harg4 arg5 harg5 arg6 harg6 hc0 x0 x1 = k0_pay7 x0 x1 (k0_pay3 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x128x64) hz3, View.readCov_unit_zero (S := S1x128x64) _ hz3]
  simp only [View.readAt_eq_ld, harg2.read_unread, harg3.read_unread, harg4.read_unread, harg5.read_unread, harg6.read_unread,
    View.ld_unit_zero (S := S20000x64) hz2, View.ld_unit_zero (S := S20000x1) hz2, View.ld_unit_zero (S := S1x128x64) hz3,
    View.readCov_unit_zero (S := S1x128x64) _ hz3]

theorem out0_A_4_eq (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : cond0_0 i)
    (x0 : Vec F S20000x64 .f32) (x1 : Vec F S20000x1 .i32) :
    out0_A_4 (F := F) c i arg2 harg2 arg3 harg3 arg4 harg4 arg5 harg5 arg6 harg6 hc0 x0 x1 = k0_pay8 x0 x1 (k0_pay4 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread,
    View.ld_unit_zero (S := S20000x64) hz2, View.ld_unit_zero (S := S20000x1) hz2, View.ld_unit_zero (S := S1x128x1) hz3,
    View.readCov_unit_zero (S := S1x128x1) _ hz3]

/-! ## The add case: the one store covers the block, and its payload was computed from the incoming contents -/

theorem out0_B_2_eq (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) :
    out0_B_2 (F := F) c i arg2 harg2 arg3 harg3 arg4 harg4 arg5 harg5 arg6 harg6 hc0 x0 x1 xo2 xo3 xo4 = k0_pay1 (k0_pay6 x1) xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero (S := S1x128x1) hz3]
  simp only [View.readAt_eq_ld, harg2.read_unread, harg3.read_unread, harg4.read_unread, harg5.read_unread, harg6.read_unread,
    View.ld_unit_zero (S := S20000x64) hz2, View.ld_unit_zero (S := S20000x1) hz2, View.ld_unit_zero (S := S1x128x1) hz3,
    View.readCov_unit_zero (S := S1x128x1) _ hz3]

theorem out0_B_3_eq (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) :
    out0_B_3 (F := F) c i arg2 harg2 arg3 harg3 arg4 harg4 arg5 harg5 arg6 harg6 hc0 x0 x1 xo2 xo3 xo4 = k0_pay7 x0 x1 xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero (S := S1x128x64) hz3]
  simp only [View.readAt_eq_ld, harg2.read_unread, harg3.read_unread, harg4.read_unread, harg5.read_unread, harg6.read_unread,
    View.ld_unit_zero (S := S20000x64) hz2, View.ld_unit_zero (S := S20000x1) hz2, View.ld_unit_zero (S := S1x128x64) hz3,
    View.readCov_unit_zero (S := S1x128x64) _ hz3]

theorem out0_B_4_eq (c : Dev nD) (i : grid0.Coords) (arg2 : Memref sig .tc .vmem S20000x64 .f32) (harg2 : arg2.IsWhole) (arg3 : Memref sig .tc .vmem S20000x1 .i32) (harg3 : arg3.IsWhole) (arg4 : Memref sig .tc .vmem S1x128x1 .f32) (harg4 : arg4.IsWhole) (arg5 : Memref sig .tc .vmem S1x128x64 .f32) (harg5 : arg5.IsWhole) (arg6 : Memref sig .tc .vmem S1x128x1 .f32) (harg6 : arg6.IsWhole) (hc0 : ¬cond0_0 i)
    (x0 : Vec F S20000x64 .f32) (x1 : Vec F S20000x1 .i32) (xo2 : Vec F S1x128x1 .f32) (xo3 : Vec F S1x128x64 .f32) (xo4 : Vec F S1x128x1 .f32) :
    out0_B_4 (F := F) c i arg2 harg2 arg3 harg3 arg4 harg4 arg5 harg5 arg6 harg6 hc0 x0 x1 xo2 xo3 xo4 = k0_pay8 x0 x1 xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero (S := S1x128x1) hz3]
  simp only [View.readAt_eq_ld, harg2.read_unread, harg3.read_unread, harg4.read_unread, harg5.read_unread, harg6.read_unread,
    View.ld_unit_zero (S := S20000x64) hz2, View.ld_unit_zero (S := S20000x1) hz2, View.ld_unit_zero (S := S1x128x1) hz3,
    View.readCov_unit_zero (S := S1x128x1) _ hz3]

end Cert.KernelIdeal.Frm

end
-- ==== Proof.Spec.lean ====
/-
  The three class statistics of the segment reduction as plain sums over the rows, with no program in sight.
  A row `r` of the 2000000 x 64 feature array contributes to class `k` exactly when its label word is the number `k`
  (a label outside 0..127 contributes to no class): the count of class `k` is the number of such rows, its sum the
  sum of their feature vectors, its sum of squares the sum of their squared norms. The same three are stated for one
  tile of 20000 rows, which is what one grid point of the kernel adds to its accumulators.
-/
import Idealize.ShloMosaic.PureOps.Ideal
import Idealize.ShloMosaic.Lib.ValueIdx

noncomputable section

open scoped BigOperators

namespace Cert.Spec

open Idealize.ShloMosaic Idealize.ShloMosaic.ValueIdx

/-- 1 when the label word `w` is the class number `k`, else 0. -/
def ind (w : BitVec 32) (k : ℕ) : EReal := if w = BitVec.ofNat 32 k then 1 else 0

theorem ind_of_eq {w : BitVec 32} {k : ℕ} (h : w = BitVec.ofNat 32 k) : ind w k = 1 := if_pos h
theorem ind_of_ne {w : BitVec 32} {k : ℕ} (h : w ≠ BitVec.ofNat 32 k) : ind w k = 0 := if_neg h

/-- An indicator times a value keeps the value or drops it (on the extended reals `0 * x = 0` for every `x`). -/
theorem ind_mul (w : BitVec 32) (k : ℕ) (x : EReal) : ind w k * x = if w = BitVec.ofNat 32 k then x else 0 := by
  unfold ind; split
  · exact one_mul x
  · exact zero_mul x

/-! ## Over the whole arrays -/

/-- The number of rows labelled `k`. -/
def counts (lab : (⟨1, ![2000000]⟩ : Shape).Idx → BitVec 32) (k : Fin 128) : EReal :=
  ∑ r : Fin 2000000, ind (lab (ix1 r)) k.val

/-- The sum of column `d` over the rows labelled `k`. -/
def sums (z : (⟨2, ![2000000, 64]⟩ : Shape).Idx → EReal) (lab : (⟨1, ![2000000]⟩ : Shape).Idx → BitVec 32)
    (k : Fin 128) (d : Fin 64) : EReal :=
  ∑ r : Fin 2000000, ind (lab (ix1 r)) k.val * z (ix2 r d)

/-- The sum of the squared norms of the rows labelled `k`. -/
def sumsq (z : (⟨2, ![2000000, 64]⟩ : Shape).Idx → EReal) (lab : (⟨1, ![2000000]⟩ : Shape).Idx → BitVec 32)
    (k : Fin 128) : EReal :=
  ∑ r : Fin 2000000, ind (lab (ix1 r)) k.val * ∑ d : Fin 64, z (ix2 r d) * z (ix2 r d)

/-! ## Over one tile of 20000 rows (features `x0`, labels `x1` as a column) -/

def tileCounts (x1 : (⟨2, ![20000, 1]⟩ : Shape).Idx → BitVec 32) (k : Fin 128) : EReal :=
  ∑ r : Fin 20000, ind (x1 (ix2 r (0 : Fin 1))) k.val

def tileSums (x0 : (⟨2, ![20000, 64]⟩ : Shape).Idx → EReal) (x1 : (⟨2, ![20000, 1]⟩ : Shape).Idx → BitVec 32)
    (k : Fin 128) (d : Fin 64) : EReal :=
  ∑ r : Fin 20000, ind (x1 (ix2 r (0 : Fin 1))) k.val * x0 (ix2 r d)

def tileSumsq (x0 : (⟨2, ![20000, 64]⟩ : Shape).Idx → EReal) (x1 : (⟨2, ![20000, 1]⟩ : Shape).Idx → BitVec 32)
    (k : Fin 128) : EReal :=
  ∑ r : Fin 20000, ind (x1 (ix2 r (0 : Fin 1))) k.val * ∑ d : Fin 64, x0 (ix2 r d) * x0 (ix2 r d)

end Cert.Spec

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.KPay.lean ====
/-
  The kernel body's stored values read at an index, at the ideal instance, in terms of one tile's class statistics.
  The one-hot matrix of a tile is 1 at (row r, class k) exactly when row r's label word is k; the three matrix
  products contract it over the tile's 20000 rows against the feature block, the column of squared row norms and a
  column of ones, which gives the tile's sums, sums of squares and counts; each is added to the accumulator read
  before it. A change of float format is the identity here, and 0 * x = 0, 1 * x = x on the extended reals.
-/
import proofs.«416220_j13005160973096_3_alg».proof.Proof.Gen.KernelIdeal.Skeleton
import proofs.«416220_j13005160973096_3_alg».proof.Proof.Spec
import proofs.«416220_j13005160973096_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Spec

/-! ## The reset values -/

/-- The reset values are zero. -/
theorem pay2_apply (j : S1x128x1.Idx) : k0_pay2 (F := Ideal) j = 0 := by
  unfold k0_pay2
  exact Ideal.ofBits_zero_f32
theorem pay3_apply (j : S1x128x64.Idx) : k0_pay3 (F := Ideal) j = 0 := by
  unfold k0_pay3
  exact Ideal.ofBits_zero_f32
theorem pay4_apply (j : S1x128x1.Idx) : k0_pay4 (F := Ideal) j = 0 := by
  unfold k0_pay4
  exact Ideal.ofBits_zero_f32

/-! ## The one-hot matrix -/

/-- The bf16 word of the column of ones denotes the extended real 1: sign 0, exponent 127 (the bias), fraction 0. -/
theorem one_bf16 : Ideal.ofBits .bf16 0x3F80#16 = 1 := by
  simp [Ideal.ofBits, Ideal.ieee, -EReal.coe_mul] <;> norm_num

/-- The label column spread over the 128 classes reads, at `(r, k)`, row `r`'s label word. -/
theorem label_bcast (x1 : Vec Ideal S20000x1 .i32) (r : Fin 20000) (k : Fin 128) :
    broadcastTo S20000x128 (shapeCast S20000x1 x1 shapeCasts_S20000x1_S20000x1) broadcasts_S20000x1_S20000x128 (ix2 r k)
      = x1 (ix2 r (0 : Fin 1)) := by
  rw [shapeCast_self]
  exact LibColumn.broadcastTo_a1_ab_apply x1 _ r k

/-- The row of class numbers spread over the 20000 rows reads, at `(r, k)`, the number `k` as a word. -/
theorem col_bcast (r : Fin 20000) (k : Fin 128) :
    broadcastTo S20000x128 (iota .tc S1x128 32 [1] iota_S1x128_d1_w32) broadcasts_S1x128_S20000x128 (ix2 r k)
      = BitVec.ofNat 32 k.val := by
  refine (broadcastTo_1b_ab_apply _ _ r k).trans ?_
  exact iota_single_apply .tc S1x128 32 1 _ (ix2 (0 : Fin 1) k)

/-- An equality bit, widened to a word, read as a signed integer and converted: 1 where the two words agree, else 0
    (the bit 1 widens to the word 1, whose signed value is 1; the bit 0 to the word 0). -/
theorem onehot_entry (A B : IVec S20000x128 32) (r : Fin 20000) (k : Fin 128) :
    (truncf .bf16 (sitofp (F := Ideal) .f32 (extui 32 (cmpi .eq A B) natLt_1_32)) bitsLt_bf16_f32) (ix2 r k)
      = if A (ix2 r k) = B (ix2 r k) then 1 else 0 := by
  show (((((IntOp.cmpi .eq (A (ix2 r k)) (B (ix2 r k))).setWidth 32).toInt : ℤ) : ℝ) : EReal) = _
  by_cases h : A (ix2 r k) = B (ix2 r k)
  · rw [if_pos h, h]; simp [IntOp.cmpi]
  · rw [if_neg h]
    have hb : (A (ix2 r k) == B (ix2 r k)) = false := beq_eq_false_iff_ne.mpr h
    simp [IntOp.cmpi, hb]

/-- The one-hot matrix at `(r, k)`: 1 when row `r`'s label word is the number `k`, else 0. -/
theorem onehot_apply (x1 : Vec Ideal S20000x1 .i32) (r : Fin 20000) (k : Fin 128) :
    k0_pay5 (F := Ideal) x1 (ix2 r k) = ind (x1 (ix2 r (0 : Fin 1))) k.val := by
  unfold k0_pay5
  refine (onehot_entry _ _ r k).trans ?_
  rw [label_bcast, col_bcast]
  rfl

/-! ## The two matrix products

Both contract axis 0 of both operands (the tile's 20000 rows): at output index \`(k, c)\` and contraction position \`r\` the
left operand is read at \`(r, k)\` and the right at \`(r, c)\`, one coordinate lemma per operand axis. -/

theorem lhs64_0 (i : S128x64.Idx) (q : dot_S20000x128_S20000x64_S128x64_0_0_1_1_n_n.contr.Idx) :
    (dot_S20000x128_S20000x64_S128x64_0_0_1_1_n_n.lhsIdx i q 0).val = (q ⟨0, by decide⟩).val :=
  dot_S20000x128_S20000x64_S128x64_0_0_1_1_n_n.lhsIdx_val_of_single rfl i q
theorem lhs64_1 (i : S128x64.Idx) (q : dot_S20000x128_S20000x64_S128x64_0_0_1_1_n_n.contr.Idx) :
    (dot_S20000x128_S20000x64_S128x64_0_0_1_1_n_n.lhsIdx i q 1).val = (i 0).val := by
  unfold DotDims.lhsIdx
  rw [dif_neg (show ¬(1 : Fin S20000x128.rank) ∈ dot_S20000x128_S20000x64_S128x64_0_0_1_1_n_n.lhsBatch by decide),
    dif_pos (show (1 : Fin S20000x128.rank) ∈ dot_S20000x128_S20000x64_S128x64_0_0_1_1_n_n.lhsNonContracting by decide)]
  rfl
theorem rhs64_0 (i : S128x64.Idx) (q : dot_S20000x128_S20000x64_S128x64_0_0_1_1_n_n.contr.Idx) :
    (dot_S20000x128_S20000x64_S128x64_0_0_1_1_n_n.rhsIdx i q 0).val = (q ⟨0, by decide⟩).val :=
  dot_S20000x128_S20000x64_S128x64_0_0_1_1_n_n.rhsIdx_val_of_single rfl i q
theorem rhs64_1 (i : S128x64.Idx) (q : dot_S20000x128_S20000x64_S128x64_0_0_1_1_n_n.contr.Idx) :
    (dot_S20000x128_S20000x64_S128x64_0_0_1_1_n_n.rhsIdx i q 1).val = (i 1).val := by
  unfold DotDims.rhsIdx
  rw [dif_neg (show ¬(1 : Fin S20000x64.rank) ∈ dot_S20000x128_S20000x64_S128x64_0_0_1_1_n_n.rhsBatch by decide),
    dif_pos (show (1 : Fin S20000x64.rank) ∈ dot_S20000x128_S20000x64_S128x64_0_0_1_1_n_n.rhsNonContracting by decide)]
  rfl

/-- The product into the 128 x 64 zero block, at class `k` and column `d`: the sum over the tile's rows. -/
theorem matmul64_apply (L : FVec Ideal S20000x128 .bf16) (R : FVec Ideal S20000x64 .bf16) (k : Fin 128) (d : Fin 64) :
    matmul dot_S20000x128_S20000x64_S128x64_0_0_1_1_n_n none L R (constant (F := Ideal) S128x64 .f32 0x00000000#32) (ix2 k d)
      = ∑ r : Fin 20000, L (ix2 r k) * R (ix2 r d) := by
  simp only [matmul]
  rw [Ideal.matmul_constant_zero_apply,
    ← Equiv.sum_comp (contrEquiv1 dot_S20000x128_S20000x64_S128x64_0_0_1_1_n_n 20000 rfl rfl).symm]
  refine Finset.sum_congr rfl fun r _ => ?_
  have hk := contrEquiv1_symm_val dot_S20000x128_S20000x64_S128x64_0_0_1_1_n_n 20000 rfl rfl r
  have el : dot_S20000x128_S20000x64_S128x64_0_0_1_1_n_n.lhsIdx (ix2 k d)
      ((contrEquiv1 dot_S20000x128_S20000x64_S128x64_0_0_1_1_n_n 20000 rfl rfl).symm r) = ix2 r k :=
    funext fun a => Fin.ext (by
      match a with
      | ⟨0, _⟩ => exact (lhs64_0 _ _).trans hk
      | ⟨1, _⟩ => exact lhs64_1 _ _)
  have er : dot_S20000x128_S20000x64_S128x64_0_0_1_1_n_n.rhsIdx (ix2 k d)
      ((contrEquiv1 dot_S20000x128_S20000x64_S128x64_0_0_1_1_n_n 20000 rfl rfl).symm r) = ix2 r d :=
    funext fun a => Fin.ext (by
      match a with
      | ⟨0, _⟩ => exact (rhs64_0 _ _).trans hk
      | ⟨1, _⟩ => exact rhs64_1 _ _)
  rw [el, er]

theorem lhs1_0 (i : S128x1.Idx) (q : dot_S20000x128_S20000x1_S128x1_0_0_1_1_n_n.contr.Idx) :
    (dot_S20000x128_S20000x1_S128x1_0_0_1_1_n_n.lhsIdx i q 0).val = (q ⟨0, by decide⟩).val :=
  dot_S20000x128_S20000x1_S128x1_0_0_1_1_n_n.lhsIdx_val_of_single rfl i q
theorem lhs1_1 (i : S128x1.Idx) (q : dot_S20000x128_S20000x1_S128x1_0_0_1_1_n_n.contr.Idx) :
    (dot_S20000x128_S20000x1_S128x1_0_0_1_1_n_n.lhsIdx i q 1).val = (i 0).val := by
  unfold DotDims.lhsIdx
  rw [dif_neg (show ¬(1 : Fin S20000x128.rank) ∈ dot_S20000x128_S20000x1_S128x1_0_0_1_1_n_n.lhsBatch by decide),
    dif_pos (show (1 : Fin S20000x128.rank) ∈ dot_S20000x128_S20000x1_S128x1_0_0_1_1_n_n.lhsNonContracting by decide)]
  rfl
theorem rhs1_0 (i : S128x1.Idx) (q : dot_S20000x128_S20000x1_S128x1_0_0_1_1_n_n.contr.Idx) :
    (dot_S20000x128_S20000x1_S128x1_0_0_1_1_n_n.rhsIdx i q 0).val = (q ⟨0, by decide⟩).val :=
  dot_S20000x128_S20000x1_S128x1_0_0_1_1_n_n.rhsIdx_val_of_single rfl i q
theorem rhs1_1 (i : S128x1.Idx) (q : dot_S20000x128_S20000x1_S128x1_0_0_1_1_n_n.contr.Idx) :
    (dot_S20000x128_S20000x1_S128x1_0_0_1_1_n_n.rhsIdx i q 1).val = (i 1).val := by
  unfold DotDims.rhsIdx
  rw [dif_neg (show ¬(1 : Fin S20000x1.rank) ∈ dot_S20000x128_S20000x1_S128x1_0_0_1_1_n_n.rhsBatch by decide),
    dif_pos (show (1 : Fin S20000x1.rank) ∈ dot_S20000x128_S20000x1_S128x1_0_0_1_1_n_n.rhsNonContracting by decide)]
  rfl

/-- The product into the 128 x 1 zero column, at class `k`: the sum over the tile's rows. -/
theorem matmul1_apply (L : FVec Ideal S20000x128 .bf16) (R : FVec Ideal S20000x1 .bf16) (k : Fin 128) :
    matmul dot_S20000x128_S20000x1_S128x1_0_0_1_1_n_n none L R (constant (F := Ideal) S128x1 .f32 0x00000000#32) (ix2 k (0 : Fin 1))
      = ∑ r : Fin 20000, L (ix2 r k) * R (ix2 r (0 : Fin 1)) := by
  simp only [matmul]
  rw [Ideal.matmul_constant_zero_apply,
    ← Equiv.sum_comp (contrEquiv1 dot_S20000x128_S20000x1_S128x1_0_0_1_1_n_n 20000 rfl rfl).symm]
  refine Finset.sum_congr rfl fun r _ => ?_
  have hk := contrEquiv1_symm_val dot_S20000x128_S20000x1_S128x1_0_0_1_1_n_n 20000 rfl rfl r
  have el : dot_S20000x128_S20000x1_S128x1_0_0_1_1_n_n.lhsIdx (ix2 k (0 : Fin 1))
      ((contrEquiv1 dot_S20000x128_S20000x1_S128x1_0_0_1_1_n_n 20000 rfl rfl).symm r) = ix2 r k :=
    funext fun a => Fin.ext (by
      match a with
      | ⟨0, _⟩ => exact (lhs1_0 _ _).trans hk
      | ⟨1, _⟩ => exact lhs1_1 _ _)
  have er : dot_S20000x128_S20000x1_S128x1_0_0_1_1_n_n.rhsIdx (ix2 k (0 : Fin 1))
      ((contrEquiv1 dot_S20000x128_S20000x1_S128x1_0_0_1_1_n_n 20000 rfl rfl).symm r) = ix2 r (0 : Fin 1) :=
    funext fun a => Fin.ext (by
      match a with
      | ⟨0, _⟩ => exact (rhs1_0 _ _).trans hk
      | ⟨1, _⟩ => exact rhs1_1 _ _)
  rw [el, er]

/-! ## The stored values -/

/-- The counts product: at class `k`, the number of rows of the tile labelled `k`. -/
theorem pay6_apply (x1 : Vec Ideal S20000x1 .i32) (k : Fin 128) :
    k0_pay6 (F := Ideal) x1 (ix2 k (0 : Fin 1)) = tileCounts x1 k := by
  unfold k0_pay6
  refine (matmul1_apply _ _ k).trans ?_
  unfold tileCounts
  refine Finset.sum_congr rfl fun r _ => ?_
  rw [onehot_apply]
  show ind (x1 (ix2 r (0 : Fin 1))) k.val * Ideal.ofBits .bf16 0x3F80#16 = _
  rw [one_bf16, mul_one]

/-- The counts accumulator's new value: what it held plus the tile's counts. -/
theorem pay1_apply (v21 : FVec Ideal S128x1 .f32) (v32 : Vec Ideal S1x128x1 .f32) (k : Fin 128) :
    k0_pay1 (F := Ideal) v21 v32 (ix3 (0 : Fin 1) k (0 : Fin 1)) = v32 (ix3 (0 : Fin 1) k (0 : Fin 1)) + v21 (ix2 k (0 : Fin 1)) := by
  unfold k0_pay1
  refine (addf_apply _ _ _).trans ?_
  rw [shapeCast_self, shapeCast_ab_1ab_apply]

/-- The sums accumulator's new value: what it held plus the tile's sums. -/
theorem pay7_apply (x0 : Vec Ideal S20000x64 .f32) (x1 : Vec Ideal S20000x1 .i32) (acc : Vec Ideal S1x128x64 .f32)
    (k : Fin 128) (d : Fin 64) :
    k0_pay7 (F := Ideal) x0 x1 acc (ix3 (0 : Fin 1) k d) = acc (ix3 (0 : Fin 1) k d) + tileSums x0 x1 k d := by
  unfold k0_pay7
  refine (addf_apply _ _ _).trans ?_
  rw [shapeCast_self, shapeCast_ab_1ab_apply, matmul64_apply]
  unfold tileSums
  refine congrArg (acc (ix3 (0 : Fin 1) k d) + ·) (Finset.sum_congr rfl fun r _ => ?_)
  rw [onehot_apply]
  rfl

/-- The sums-of-squares accumulator's new value: what it held plus the tile's sums of squares. -/
theorem pay8_apply (x0 : Vec Ideal S20000x64 .f32) (x1 : Vec Ideal S20000x1 .i32) (acc : Vec Ideal S1x128x1 .f32)
    (k : Fin 128) :
    k0_pay8 (F := Ideal) x0 x1 acc (ix3 (0 : Fin 1) k (0 : Fin 1)) = acc (ix3 (0 : Fin 1) k (0 : Fin 1)) + tileSumsq x0 x1 k := by
  unfold k0_pay8
  refine (addf_apply _ _ _).trans ?_
  rw [shapeCast_self, shapeCast_ab_1ab_apply, matmul1_apply]
  unfold tileSumsq
  refine congrArg (acc (ix3 (0 : Fin 1) k (0 : Fin 1)) + ·) (Finset.sum_congr rfl fun r _ => ?_)
  rw [onehot_apply]
  refine congrArg (ind (x1 (ix2 r (0 : Fin 1))) k.val * ·) ?_
  refine (truncf_apply (φ := .f32) (ψ := .bf16) _ bitsLt_bf16_f32 _).trans ?_
  refine (LibColumn.shapeCast_a_a1_apply _ _ r (0 : Fin 1)).trans ?_
  refine (LibColumn.sumAxis1_apply _ _ _ _ _ r).trans ?_
  rfl

end Cert.KernelIdeal.Pay

end
-- ==== Proof.KIValue.lean ====
/-
  What the three accumulators hold after each grid point.
  After grid point `t` an accumulator's staging buffer holds the tile statistics summed over the tiles of `t`'s half up
  to `t` (the points `s` with `s / 50 = t / 50` and `s ≤ t`): at the half's first tile the reset and one addition, at every
  later tile one more addition to what the tile before left.
-/
import proofs.«416220_j13005160973096_3_alg».proof.Proof.KIPieces
import proofs.«416220_j13005160973096_3_alg».proof.Proof.KPay
import proofs.«416220_j13005160973096_3_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The points of a half up to a point -/

/-- At a half's first point the points of the half up to it are that point alone. -/
theorem upto_first {N : ℕ} (n : ℕ) (hn : n < N) (h0 : n % 50 = 0) :
    (Finset.univ.filter fun s : Fin N => s.val / 50 = n / 50 ∧ s.val ≤ n) = {⟨n, hn⟩} := by
  ext s
  simp only [Finset.mem_filter, Finset.mem_univ, true_and, Finset.mem_singleton]
  constructor
  · rintro ⟨h1, h2⟩
    apply Fin.ext
    show s.val = n
    omega
  · rintro rfl
    exact ⟨rfl, le_refl _⟩

/-- At any other point they are the points up to the point before, and the point itself. -/
theorem upto_next {N : ℕ} (n : ℕ) (hn : n + 1 < N) (h0 : ¬(n + 1) % 50 = 0) :
    (Finset.univ.filter fun s : Fin N => s.val / 50 = (n + 1) / 50 ∧ s.val ≤ n + 1)
      = insert ⟨n + 1, hn⟩ (Finset.univ.filter fun s : Fin N => s.val / 50 = n / 50 ∧ s.val ≤ n) := by
  ext s
  simp only [Finset.mem_filter, Finset.mem_univ, true_and, Finset.mem_insert]
  constructor
  · rintro ⟨h1, h2⟩
    by_cases hs : s.val = n + 1
    · exact Or.inl (Fin.ext hs)
    · exact Or.inr ⟨by omega, by omega⟩
  · rintro (rfl | ⟨h1, h2⟩)
    · exact ⟨rfl, le_refl _⟩
    · exact ⟨by omega, by omega⟩

/-- So a sum over them is the value at the first point, -/
theorem sum_upto_first {N : ℕ} (f : Fin N → EReal) (n : ℕ) (hn : n < N) (h0 : n % 50 = 0) :
    ∑ s ∈ (Finset.univ.filter fun s : Fin N => s.val / 50 = n / 50 ∧ s.val ≤ n), f s = f ⟨n, hn⟩ := by
  rw [upto_first n hn h0, Finset.sum_singleton]

/-- and at any other point the sum up to the point before plus the value at the point. -/
theorem sum_upto_next {N : ℕ} (f : Fin N → EReal) (n : ℕ) (hn : n + 1 < N) (h0 : ¬(n + 1) % 50 = 0) :
    ∑ s ∈ (Finset.univ.filter fun s : Fin N => s.val / 50 = (n + 1) / 50 ∧ s.val ≤ n + 1), f s
      = (∑ s ∈ (Finset.univ.filter fun s : Fin N => s.val / 50 = n / 50 ∧ s.val ≤ n), f s) + f ⟨n + 1, hn⟩ := by
  rw [upto_next n hn h0, Finset.sum_insert, add_comm]
  simp only [Finset.mem_filter, Finset.mem_univ, true_and, not_and, not_le]
  intro _
  exact Nat.lt_succ_self n

/-! ## One point's contribution to each accumulator -/

/-- At a reset point the counts accumulator ends at the tile's counts (the reset value is zero), -/
theorem counts_first (x1 : Vec Ideal S20000x1 .i32) (k : Fin 128) :
    k0_pay1 (F := Ideal) (k0_pay6 x1) (k0_pay2 (F := Ideal)) (ix3 (0 : Fin 1) k (0 : Fin 1)) = Cert.Spec.tileCounts x1 k := by
  rw [Pay.pay1_apply, Pay.pay2_apply, Pay.pay6_apply, zero_add]

/-- and at any other point at what it held plus the tile's counts. -/
theorem counts_next (x1 : Vec Ideal S20000x1 .i32) (acc : Vec Ideal S1x128x1 .f32) (k : Fin 128) :
    k0_pay1 (F := Ideal) (k0_pay6 x1) acc (ix3 (0 : Fin 1) k (0 : Fin 1))
      = acc (ix3 (0 : Fin 1) k (0 : Fin 1)) + Cert.Spec.tileCounts x1 k := by
  rw [Pay.pay1_apply, Pay.pay6_apply]

/-- The same for the sums -/
theorem sums_first (x0 : Vec Ideal S20000x64 .f32) (x1 : Vec Ideal S20000x1 .i32) (k : Fin 128) (d : Fin 64) :
    k0_pay7 (F := Ideal) x0 x1 (k0_pay3 (F := Ideal)) (ix3 (0 : Fin 1) k d) = Cert.Spec.tileSums x0 x1 k d := by
  rw [Pay.pay7_apply, Pay.pay3_apply, zero_add]

/-- and for the sums of squares. -/
theorem sumsq_first (x0 : Vec Ideal S20000x64 .f32) (x1 : Vec Ideal S20000x1 .i32) (k : Fin 128) :
    k0_pay8 (F := Ideal) x0 x1 (k0_pay4 (F := Ideal)) (ix3 (0 : Fin 1) k (0 : Fin 1)) = Cert.Spec.tileSumsq x0 x1 k := by
  rw [Pay.pay8_apply, Pay.pay4_apply, zero_add]

/-! ## After each point -/

/-- At a half's first point the counts accumulator ends at the tile's counts: the reset case. -/
theorem outs_counts_first (c : Dev nD) (k : Fin 128) (n : ℕ) (hn : n < cfg0.N) (h0 : n % 50 = 0) :
    (outsAt0 m c n hn).1 (ix3 (0 : Fin 1) k (0 : Fin 1)) = Cert.Spec.tileCounts (iblk m c 1 ⟨n, hn⟩) k := by
  rw [outsAt0_A m c ⟨n, hn⟩ h0]
  dsimp only
  exact (congrFun (out0_A_2_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk m c 0 ⟨n, hn⟩) (iblk m c 1 ⟨n, hn⟩)) (ix3 (0 : Fin 1) k (0 : Fin 1))).trans
    (counts_first (iblk m c 1 ⟨n, hn⟩) k)

/-- At any other point it ends at what the point before left plus the tile's counts: the add case. -/
theorem outs_counts_next (c : Dev nD) (k : Fin 128) (n : ℕ) (hn : n + 1 < cfg0.N) (h0 : ¬(n + 1) % 50 = 0) :
    (outsAt0 m c (n + 1) hn).1 (ix3 (0 : Fin 1) k (0 : Fin 1))
      = (outsAt0 m c n (Nat.lt_of_succ_lt hn)).1 (ix3 (0 : Fin 1) k (0 : Fin 1)) + Cert.Spec.tileCounts (iblk m c 1 ⟨n + 1, hn⟩) k := by
  rw [outsAt0_B m c ⟨n + 1, hn⟩ h0]
  dsimp only
  exact (congrFun (out0_B_2_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 m c n (Nat.lt_of_succ_lt hn)).1 (outsAt0 m c n (Nat.lt_of_succ_lt hn)).2.1 (outsAt0 m c n (Nat.lt_of_succ_lt hn)).2.2) (ix3 (0 : Fin 1) k (0 : Fin 1))).trans
    (counts_next (iblk m c 1 ⟨n + 1, hn⟩) (outsAt0 m c n (Nat.lt_of_succ_lt hn)).1 k)

/-- So after point `n` it holds the tiles' counts summed over the points of `n`'s half up to `n`: by induction on the point. -/
theorem outs_counts_nat (c : Dev nD) (k : Fin 128) : ∀ (n : ℕ) (hn : n < cfg0.N),
    (outsAt0 m c n hn).1 (ix3 (0 : Fin 1) k (0 : Fin 1))
      = ∑ s ∈ (Finset.univ.filter fun s : Fin cfg0.N => s.val / 50 = n / 50 ∧ s.val ≤ n), Cert.Spec.tileCounts (iblk m c 1 s) k
  | 0, hn => (outs_counts_first m c k 0 hn (Nat.zero_mod _)).trans
      (sum_upto_first (fun s : Fin cfg0.N => Cert.Spec.tileCounts (iblk m c 1 s) k) 0 hn (Nat.zero_mod _)).symm
  | n + 1, hn => by
    by_cases h0 : (n + 1) % 50 = 0
    · exact (outs_counts_first m c k (n + 1) hn h0).trans
        (sum_upto_first (fun s : Fin cfg0.N => Cert.Spec.tileCounts (iblk m c 1 s) k) (n + 1) hn h0).symm
    · rw [outs_counts_next m c k n hn h0, outs_counts_nat c k n (Nat.lt_of_succ_lt hn)]
      exact (sum_upto_next (fun s : Fin cfg0.N => Cert.Spec.tileCounts (iblk m c 1 s) k) n hn h0).symm

/-- At a half's first point the sums accumulator ends at the tile's sums: the reset case. -/
theorem outs_sums_first (c : Dev nD) (k : Fin 128) (d : Fin 64) (n : ℕ) (hn : n < cfg0.N) (h0 : n % 50 = 0) :
    (outsAt0 m c n hn).2.1 (ix3 (0 : Fin 1) k d) = Cert.Spec.tileSums (iblk m c 0 ⟨n, hn⟩) (iblk m c 1 ⟨n, hn⟩) k d := by
  rw [outsAt0_A m c ⟨n, hn⟩ h0]
  dsimp only
  exact (congrFun (out0_A_3_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk m c 0 ⟨n, hn⟩) (iblk m c 1 ⟨n, hn⟩)) (ix3 (0 : Fin 1) k d)).trans
    (sums_first (iblk m c 0 ⟨n, hn⟩) (iblk m c 1 ⟨n, hn⟩) k d)

/-- At any other point it ends at what the point before left plus the tile's sums: the add case. -/
theorem outs_sums_next (c : Dev nD) (k : Fin 128) (d : Fin 64) (n : ℕ) (hn : n + 1 < cfg0.N) (h0 : ¬(n + 1) % 50 = 0) :
    (outsAt0 m c (n + 1) hn).2.1 (ix3 (0 : Fin 1) k d)
      = (outsAt0 m c n (Nat.lt_of_succ_lt hn)).2.1 (ix3 (0 : Fin 1) k d) + Cert.Spec.tileSums (iblk m c 0 ⟨n + 1, hn⟩) (iblk m c 1 ⟨n + 1, hn⟩) k d := by
  rw [outsAt0_B m c ⟨n + 1, hn⟩ h0]
  dsimp only
  exact (congrFun (out0_B_3_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 m c n (Nat.lt_of_succ_lt hn)).1 (outsAt0 m c n (Nat.lt_of_succ_lt hn)).2.1 (outsAt0 m c n (Nat.lt_of_succ_lt hn)).2.2) (ix3 (0 : Fin 1) k d)).trans
    (Pay.pay7_apply (iblk m c 0 ⟨n + 1, hn⟩) (iblk m c 1 ⟨n + 1, hn⟩) (outsAt0 m c n (Nat.lt_of_succ_lt hn)).2.1 k d)

/-- So after point `n` it holds the tiles' sums summed over the points of `n`'s half up to `n`: by induction on the point. -/
theorem outs_sums_nat (c : Dev nD) (k : Fin 128) (d : Fin 64) : ∀ (n : ℕ) (hn : n < cfg0.N),
    (outsAt0 m c n hn).2.1 (ix3 (0 : Fin 1) k d)
      = ∑ s ∈ (Finset.univ.filter fun s : Fin cfg0.N => s.val / 50 = n / 50 ∧ s.val ≤ n), Cert.Spec.tileSums (iblk m c 0 s) (iblk m c 1 s) k d
  | 0, hn => (outs_sums_first m c k d 0 hn (Nat.zero_mod _)).trans
      (sum_upto_first (fun s : Fin cfg0.N => Cert.Spec.tileSums (iblk m c 0 s) (iblk m c 1 s) k d) 0 hn (Nat.zero_mod _)).symm
  | n + 1, hn => by
    by_cases h0 : (n + 1) % 50 = 0
    · exact (outs_sums_first m c k d (n + 1) hn h0).trans
        (sum_upto_first (fun s : Fin cfg0.N => Cert.Spec.tileSums (iblk m c 0 s) (iblk m c 1 s) k d) (n + 1) hn h0).symm
    · rw [outs_sums_next m c k d n hn h0, outs_sums_nat c k d n (Nat.lt_of_succ_lt hn)]
      exact (sum_upto_next (fun s : Fin cfg0.N => Cert.Spec.tileSums (iblk m c 0 s) (iblk m c 1 s) k d) n hn h0).symm

/-- At a half's first point the sums of squares accumulator ends at the tile's sums of squares: the reset case. -/
theorem outs_sumsq_first (c : Dev nD) (k : Fin 128) (n : ℕ) (hn : n < cfg0.N) (h0 : n % 50 = 0) :
    (outsAt0 m c n hn).2.2 (ix3 (0 : Fin 1) k (0 : Fin 1)) = Cert.Spec.tileSumsq (iblk m c 0 ⟨n, hn⟩) (iblk m c 1 ⟨n, hn⟩) k := by
  rw [outsAt0_A m c ⟨n, hn⟩ h0]
  dsimp only
  exact (congrFun (out0_A_4_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk m c 0 ⟨n, hn⟩) (iblk m c 1 ⟨n, hn⟩)) (ix3 (0 : Fin 1) k (0 : Fin 1))).trans
    (sumsq_first (iblk m c 0 ⟨n, hn⟩) (iblk m c 1 ⟨n, hn⟩) k)

/-- At any other point it ends at what the point before left plus the tile's sums of squares: the add case. -/
theorem outs_sumsq_next (c : Dev nD) (k : Fin 128) (n : ℕ) (hn : n + 1 < cfg0.N) (h0 : ¬(n + 1) % 50 = 0) :
    (outsAt0 m c (n + 1) hn).2.2 (ix3 (0 : Fin 1) k (0 : Fin 1))
      = (outsAt0 m c n (Nat.lt_of_succ_lt hn)).2.2 (ix3 (0 : Fin 1) k (0 : Fin 1)) + Cert.Spec.tileSumsq (iblk m c 0 ⟨n + 1, hn⟩) (iblk m c 1 ⟨n + 1, hn⟩) k := by
  rw [outsAt0_B m c ⟨n + 1, hn⟩ h0]
  dsimp only
  exact (congrFun (out0_B_4_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 m c n (Nat.lt_of_succ_lt hn)).1 (outsAt0 m c n (Nat.lt_of_succ_lt hn)).2.1 (outsAt0 m c n (Nat.lt_of_succ_lt hn)).2.2) (ix3 (0 : Fin 1) k (0 : Fin 1))).trans
    (Pay.pay8_apply (iblk m c 0 ⟨n + 1, hn⟩) (iblk m c 1 ⟨n + 1, hn⟩) (outsAt0 m c n (Nat.lt_of_succ_lt hn)).2.2 k)

/-- So after point `n` it holds the tiles' sums of squares summed over the points of `n`'s half up to `n`: by induction on the point. -/
theorem outs_sumsq_nat (c : Dev nD) (k : Fin 128) : ∀ (n : ℕ) (hn : n < cfg0.N),
    (outsAt0 m c n hn).2.2 (ix3 (0 : Fin 1) k (0 : Fin 1))
      = ∑ s ∈ (Finset.univ.filter fun s : Fin cfg0.N => s.val / 50 = n / 50 ∧ s.val ≤ n), Cert.Spec.tileSumsq (iblk m c 0 s) (iblk m c 1 s) k
  | 0, hn => (outs_sumsq_first m c k 0 hn (Nat.zero_mod _)).trans
      (sum_upto_first (fun s : Fin cfg0.N => Cert.Spec.tileSumsq (iblk m c 0 s) (iblk m c 1 s) k) 0 hn (Nat.zero_mod _)).symm
  | n + 1, hn => by
    by_cases h0 : (n + 1) % 50 = 0
    · exact (outs_sumsq_first m c k (n + 1) hn h0).trans
        (sum_upto_first (fun s : Fin cfg0.N => Cert.Spec.tileSumsq (iblk m c 0 s) (iblk m c 1 s) k) (n + 1) hn h0).symm
    · rw [outs_sumsq_next m c k n hn h0, outs_sumsq_nat c k n (Nat.lt_of_succ_lt hn)]
      exact (sum_upto_next (fun s : Fin cfg0.N => Cert.Spec.tileSumsq (iblk m c 0 s) (iblk m c 1 s) k) n hn h0).symm

/-! ## The statements at a point of the grid -/

/-- The counts accumulator after grid point `t`. -/
theorem outs_counts (c : Dev nD) (t : Fin cfg0.N) (k : Fin 128) :
    (outsAt0 m c t.val t.isLt).1 (ix3 (0 : Fin 1) k (0 : Fin 1))
      = ∑ s ∈ (Finset.univ.filter fun s : Fin cfg0.N => s.val / 50 = t.val / 50 ∧ s.val ≤ t.val), Cert.Spec.tileCounts (iblk m c 1 s) k :=
  outs_counts_nat m c k t.val t.isLt

/-- The sums accumulator after grid point `t`. -/
theorem outs_sums (c : Dev nD) (t : Fin cfg0.N) (k : Fin 128) (d : Fin 64) :
    (outsAt0 m c t.val t.isLt).2.1 (ix3 (0 : Fin 1) k d)
      = ∑ s ∈ (Finset.univ.filter fun s : Fin cfg0.N => s.val / 50 = t.val / 50 ∧ s.val ≤ t.val), Cert.Spec.tileSums (iblk m c 0 s) (iblk m c 1 s) k d :=
  outs_sums_nat m c k d t.val t.isLt

/-- The sums-of-squares accumulator after grid point `t`. -/
theorem outs_sumsq (c : Dev nD) (t : Fin cfg0.N) (k : Fin 128) :
    (outsAt0 m c t.val t.isLt).2.2 (ix3 (0 : Fin 1) k (0 : Fin 1))
      = ∑ s ∈ (Finset.univ.filter fun s : Fin cfg0.N => s.val / 50 = t.val / 50 ∧ s.val ≤ t.val), Cert.Spec.tileSumsq (iblk m c 0 s) (iblk m c 1 s) k :=
  outs_sumsq_nat m c k t.val t.isLt

end Cert.KernelIdeal.Val

end
-- ==== Proof.KIArrays.lean ====
/-
  The three arrays the region leaves. An accumulator's staging buffer is written back after the last tile of a half
  (the grid points 49 and 99) into the block of its array that the half owns, so half `h` of the array ends holding what
  the buffer held after point `50 h + 49`: the tile statistics summed over all 50 points of that half.
-/
import proofs.«416220_j13005160973096_3_alg».proof.Proof.KIValue
import proofs.«416220_j13005160973096_3_alg».proof.Proof.Spec
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat Cfg Window)

/-! ## The points of a half, and the accumulators' block index maps -/

/-- At the last point of a half, the points of the half up to it are the whole half. -/
theorem half_filter (t : Fin cfg0.N) (ht : t.val % 50 = 49) :
    (Finset.univ.filter fun s : Fin cfg0.N => s.val / 50 = t.val / 50 ∧ s.val ≤ t.val)
      = Finset.univ.filter fun s : Fin cfg0.N => s.val / 50 = t.val / 50 := by
  refine Finset.filter_congr fun s _ => ?_
  have hs : s.val < 100 := lt_of_lt_of_eq s.isLt N_0
  have hN : t.val < 100 := lt_of_lt_of_eq t.isLt N_0
  omega

/-- The last point of half `h`. -/
theorem last_lt (h : ℕ) (hh : h < 2) : 50 * h + 49 < cfg0.N := by
  rw [show cfg0.N = 100 from N_0]; omega

/-- The counts window's block at point `t` is block `(t / 50, 0, 0)`: the half's. -/
theorem index2 : ∀ t : Fin cfg0.N, win0_2.index t (0 : Fin 3) = t.val / 50 ∧ win0_2.index t (1 : Fin 3) = 0 ∧ win0_2.index t (2 : Fin 3) = 0 :=
  (by decide +kernel : ∀ t : Fin grid0.N, win0_2.index t (0 : Fin 3) = t.val / 50 ∧ win0_2.index t (1 : Fin 3) = 0 ∧ win0_2.index t (2 : Fin 3) = 0)

/-- The sums window's likewise. -/
theorem index3 : ∀ t : Fin cfg0.N, win0_3.index t (0 : Fin 3) = t.val / 50 ∧ win0_3.index t (1 : Fin 3) = 0 ∧ win0_3.index t (2 : Fin 3) = 0 :=
  (by decide +kernel : ∀ t : Fin grid0.N, win0_3.index t (0 : Fin 3) = t.val / 50 ∧ win0_3.index t (1 : Fin 3) = 0 ∧ win0_3.index t (2 : Fin 3) = 0)

/-- The sums-of-squares window's likewise. -/
theorem index4 : ∀ t : Fin cfg0.N, win0_4.index t (0 : Fin 3) = t.val / 50 ∧ win0_4.index t (1 : Fin 3) = 0 ∧ win0_4.index t (2 : Fin 3) = 0 :=
  (by decide +kernel : ∀ t : Fin grid0.N, win0_4.index t (0 : Fin 3) = t.val / 50 ∧ win0_4.index t (1 : Fin 3) = 0 ∧ win0_4.index t (2 : Fin 3) = 0)

/-! ## A half's block read where the array's index says -/

/-- A [1,128,1] block that agrees class by class with half `h` of a [2,128,1] array is that array read at any index whose
    coordinates are the block's, the first moved to `h`. -/
theorem block_read_1 (x : (⟨3, ![1, 128, 1]⟩ : Shape).Idx → EReal) (G : (⟨3, ![2, 128, 1]⟩ : Shape).Idx → EReal) (h : Fin 2)
    (hx : ∀ k : Fin 128, x (ix3 (0 : Fin 1) k (0 : Fin 1)) = G (ix3 h k (0 : Fin 1)))
    (j : (⟨3, ![1, 128, 1]⟩ : Shape).Idx) (i : (⟨3, ![2, 128, 1]⟩ : Shape).Idx)
    (h0 : (i 0).val = h.val) (h1 : (i 1).val = (j 1).val) : x j = G i := by
  obtain ⟨q, k, u, rfl⟩ : ∃ (q : Fin 1) (k : Fin 128) (u : Fin 1), j = ix3 q k u := ⟨j 0, j 1, j 2, eq_ix3 j⟩
  obtain ⟨a, b, e, rfl⟩ : ∃ (a : Fin 2) (b : Fin 128) (e : Fin 1), i = ix3 a b e := ⟨i 0, i 1, i 2, eq_ix3 i⟩
  obtain rfl : q = 0 := Subsingleton.elim _ _
  obtain rfl : u = 0 := Subsingleton.elim _ _
  obtain rfl : e = 0 := Subsingleton.elim _ _
  obtain rfl : a = h := Fin.ext h0
  obtain rfl : b = k := Fin.ext h1
  exact hx b

/-- The same for a [1,128,64] block of a [2,128,64] array. -/
theorem block_read_64 (x : (⟨3, ![1, 128, 64]⟩ : Shape).Idx → EReal) (G : (⟨3, ![2, 128, 64]⟩ : Shape).Idx → EReal) (h : Fin 2)
    (hx : ∀ (k : Fin 128) (d : Fin 64), x (ix3 (0 : Fin 1) k d) = G (ix3 h k d))
    (j : (⟨3, ![1, 128, 64]⟩ : Shape).Idx) (i : (⟨3, ![2, 128, 64]⟩ : Shape).Idx)
    (h0 : (i 0).val = h.val) (h1 : (i 1).val = (j 1).val) (h2 : (i 2).val = (j 2).val) : x j = G i := by
  obtain ⟨q, k, u, rfl⟩ : ∃ (q : Fin 1) (k : Fin 128) (u : Fin 64), j = ix3 q k u := ⟨j 0, j 1, j 2, eq_ix3 j⟩
  obtain ⟨a, b, e, rfl⟩ : ∃ (a : Fin 2) (b : Fin 128) (e : Fin 64), i = ix3 a b e := ⟨i 0, i 1, i 2, eq_ix3 i⟩
  obtain rfl : q = 0 := Subsingleton.elim _ _
  obtain rfl : a = h := Fin.ext h0
  obtain rfl : b = k := Fin.ext h1
  obtain rfl : e = u := Fin.ext h2
  exact hx b e

variable (m : (ℓ : Loc nD τ sig) → Buf (Elt Ideal) ℓ)

/-! ## The counts array (window 2) -/

/-- What the counts array ends holding: half `h`, class `k` is the tile counts summed over the 50 tiles of the half. -/
def G2 (c : Dev nD) : (⟨3, ![2, 128, 1]⟩ : Shape).Idx → EReal := fun i =>
  ∑ s ∈ (Finset.univ.filter fun s : Fin cfg0.N => s.val / 50 = (i 0).val), Cert.Spec.tileCounts (iblk m c 1 s) (i 1)

/-- What the last point of a half writes back is that half's block of `G2`. -/
theorem flushed2_eq (c : Dev nD) (t : Fin cfg0.N) (hf : (cfg0.win 2).flush t = true) :
    (dats m 0 c).flushed 2 t = ((cfg0.win 2).blk t).view.read (Elt Ideal) (G2 m c) := by
  have ht : t.val % 50 = 49 := (flush0_2 t).mp hf
  have hN : t.val < 100 := lt_of_lt_of_eq t.isLt N_0
  obtain ⟨e0, e1, e2⟩ := index2 t
  show (cfg0.win 2).cut (grid0.coords t) ((dats m 0 c).after 2 t) = _
  rw [after0_2]
  funext j
  rw [View.read_apply]
  refine block_read_1 (outsAt0 m c t.val t.isLt).1 (G2 m c) ⟨t.val / 50, by omega⟩ (fun k => ?_) j _ ?_ ?_
  · rw [Cert.KernelIdeal.Val.outs_counts m c t k, half_filter t ht]
    rfl
  · show win0_2.index t 0 * 1 + 1 * (j 0).val = t.val / 50
    have : (j 0).val < 1 := (j 0).isLt
    rw [e0]; omega
  · show win0_2.index t 1 * 128 + 1 * (j 1).val = (j 1).val
    rw [e1]; omega

/-- An index of the counts array is in point `t`'s block iff each coordinate is in the block's range on its axis. -/
theorem mem_blk2 (t : Fin cfg0.N) (i : (⟨3, ![2, 128, 1]⟩ : Shape).Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_v1_0).slice (win0_2.rect t)).set ↔ _
  rw [View.set_slice_whole, Rect.mem_set_unit]
  exact Iff.rfl

/-- Every index of the counts array is under the block written back after the last tile of its half. -/
theorem cover2 (i : (⟨3, ![2, 128, 1]⟩ : Shape).Idx) :
    ∃ t : Fin cfg0.N, (cfg0.win 2).flush t = true ∧ i ∈ ((cfg0.win 2).blk t).view.set := by
  have hi0 : (i 0).val < 2 := (i 0).isLt
  have hi1 : (i 1).val < 128 := (i 1).isLt
  have hi2 : (i 2).val < 1 := (i 2).isLt
  refine ⟨⟨50 * (i 0).val + 49, last_lt _ hi0⟩, (flush0_2 _).mpr (by show (50 * (i 0).val + 49) % 50 = 49; omega), ?_⟩
  rw [mem_blk2]
  obtain ⟨e0, e1, e2⟩ := index2 ⟨50 * (i 0).val + 49, last_lt _ hi0⟩
  intro a
  match a with
  | ⟨0, _⟩ => show win0_2.index _ (0 : Fin 3) * 1 ≤ (i 0).val ∧ (i 0).val < win0_2.index _ (0 : Fin 3) * 1 + 1; rw [e0]; show (50 * (i 0).val + 49) / 50 * 1 ≤ (i 0).val ∧ (i 0).val < (50 * (i 0).val + 49) / 50 * 1 + 1; omega
  | ⟨1, _⟩ => show win0_2.index _ (1 : Fin 3) * 128 ≤ (i 1).val ∧ (i 1).val < win0_2.index _ (1 : Fin 3) * 128 + 128; rw [e1]; omega
  | ⟨2, _⟩ => show win0_2.index _ (2 : Fin 3) * 1 ≤ (i 2).val ∧ (i 2).val < win0_2.index _ (2 : Fin 3) * 1 + 1; rw [e2]; omega

/-- The counts array after the region. -/
theorem final2 (c : Dev nD) : (dats m 0 c).arrAt 2 cfg0.N = G2 m c :=
  (dats m 0 c).arrAt_eq_of_cover 2 (G2 m c) (fun t hf => flushed2_eq m c t hf) cover2

theorem arr2_apply (c : Dev nD) (h : Fin 2) (k : Fin 128) :
    (dats m 0 c).arrAt 2 cfg0.N (ix3 h k (0 : Fin 1))
      = ∑ s ∈ (Finset.univ.filter fun s : Fin cfg0.N => s.val / 50 = h.val), Cert.Spec.tileCounts (iblk m c 1 s) k := by
  rw [final2]
  rfl

/-! ## The sums array (window 3) -/

/-- What the sums array ends holding: half `h`, class `k`, column `d` is the tile sums summed over the 50 tiles of the half. -/
def G3 (c : Dev nD) : (⟨3, ![2, 128, 64]⟩ : Shape).Idx → EReal := fun i =>
  ∑ s ∈ (Finset.univ.filter fun s : Fin cfg0.N => s.val / 50 = (i 0).val), Cert.Spec.tileSums (iblk m c 0 s) (iblk m c 1 s) (i 1) (i 2)

/-- What the last point of a half writes back is that half's block of `G3`. -/
theorem flushed3_eq (c : Dev nD) (t : Fin cfg0.N) (hf : (cfg0.win 3).flush t = true) :
    (dats m 0 c).flushed 3 t = ((cfg0.win 3).blk t).view.read (Elt Ideal) (G3 m c) := by
  have ht : t.val % 50 = 49 := (flush0_3 t).mp hf
  have hN : t.val < 100 := lt_of_lt_of_eq t.isLt N_0
  obtain ⟨e0, e1, e2⟩ := index3 t
  show (cfg0.win 3).cut (grid0.coords t) ((dats m 0 c).after 3 t) = _
  rw [after0_3]
  funext j
  rw [View.read_apply]
  refine block_read_64 (outsAt0 m c t.val t.isLt).2.1 (G3 m c) ⟨t.val / 50, by omega⟩ (fun k d => ?_) j _ ?_ ?_ ?_
  · rw [Cert.KernelIdeal.Val.outs_sums m c t k d, half_filter t ht]
    rfl
  · show win0_3.index t 0 * 1 + 1 * (j 0).val = t.val / 50
    have : (j 0).val < 1 := (j 0).isLt
    rw [e0]; omega
  · show win0_3.index t 1 * 128 + 1 * (j 1).val = (j 1).val
    rw [e1]; omega
  · show win0_3.index t 2 * 64 + 1 * (j 2).val = (j 2).val
    rw [e2]; omega

/-- An index of the sums array is in point `t`'s block iff each coordinate is in the block's range on its axis. -/
theorem mem_blk3 (t : Fin cfg0.N) (i : (⟨3, ![2, 128, 64]⟩ : Shape).Idx) :
    i ∈ ((cfg0.win 3).blk t).view.set ↔ ∀ a : Fin 3, win0_3.index t a * S1x128x64.size a ≤ (i a).val ∧ (i a).val < win0_3.index t a * S1x128x64.size a + S1x128x64.size a := by
  show i ∈ ((View.whole main_v1_1).slice (win0_3.rect t)).set ↔ _
  rw [View.set_slice_whole, Rect.mem_set_unit]
  exact Iff.rfl

/-- Every index of the sums array is under the block written back after the last tile of its half. -/
theorem cover3 (i : (⟨3, ![2, 128, 64]⟩ : Shape).Idx) :
    ∃ t : Fin cfg0.N, (cfg0.win 3).flush t = true ∧ i ∈ ((cfg0.win 3).blk t).view.set := by
  have hi0 : (i 0).val < 2 := (i 0).isLt
  have hi1 : (i 1).val < 128 := (i 1).isLt
  have hi2 : (i 2).val < 64 := (i 2).isLt
  refine ⟨⟨50 * (i 0).val + 49, last_lt _ hi0⟩, (flush0_3 _).mpr (by show (50 * (i 0).val + 49) % 50 = 49; omega), ?_⟩
  rw [mem_blk3]
  obtain ⟨e0, e1, e2⟩ := index3 ⟨50 * (i 0).val + 49, last_lt _ hi0⟩
  intro a
  match a with
  | ⟨0, _⟩ => show win0_3.index _ (0 : Fin 3) * 1 ≤ (i 0).val ∧ (i 0).val < win0_3.index _ (0 : Fin 3) * 1 + 1; rw [e0]; show (50 * (i 0).val + 49) / 50 * 1 ≤ (i 0).val ∧ (i 0).val < (50 * (i 0).val + 49) / 50 * 1 + 1; omega
  | ⟨1, _⟩ => show win0_3.index _ (1 : Fin 3) * 128 ≤ (i 1).val ∧ (i 1).val < win0_3.index _ (1 : Fin 3) * 128 + 128; rw [e1]; omega
  | ⟨2, _⟩ => show win0_3.index _ (2 : Fin 3) * 64 ≤ (i 2).val ∧ (i 2).val < win0_3.index _ (2 : Fin 3) * 64 + 64; rw [e2]; omega

/-- The sums array after the region. -/
theorem final3 (c : Dev nD) : (dats m 0 c).arrAt 3 cfg0.N = G3 m c :=
  (dats m 0 c).arrAt_eq_of_cover 3 (G3 m c) (fun t hf => flushed3_eq m c t hf) cover3

theorem arr3_apply (c : Dev nD) (h : Fin 2) (k : Fin 128) (d : Fin 64) :
    (dats m 0 c).arrAt 3 cfg0.N (ix3 h k d)
      = ∑ s ∈ (Finset.univ.filter fun s : Fin cfg0.N => s.val / 50 = h.val), Cert.Spec.tileSums (iblk m c 0 s) (iblk m c 1 s) k d := by
  rw [final3]
  rfl

/-! ## The sums-of-squares array (window 4) -/

/-- What the sums-of-squares array ends holding: half `h`, class `k` is the tile sums of squares summed over the 50
    tiles of the half. -/
def G4 (c : Dev nD) : (⟨3, ![2, 128, 1]⟩ : Shape).Idx → EReal := fun i =>
  ∑ s ∈ (Finset.univ.filter fun s : Fin cfg0.N => s.val / 50 = (i 0).val), Cert.Spec.tileSumsq (iblk m c 0 s) (iblk m c 1 s) (i 1)

/-- What the last point of a half writes back is that half's block of `G4`. -/
theorem flushed4_eq (c : Dev nD) (t : Fin cfg0.N) (hf : (cfg0.win 4).flush t = true) :
    (dats m 0 c).flushed 4 t = ((cfg0.win 4).blk t).view.read (Elt Ideal) (G4 m c) := by
  have ht : t.val % 50 = 49 := (flush0_4 t).mp hf
  have hN : t.val < 100 := lt_of_lt_of_eq t.isLt N_0
  obtain ⟨e0, e1, e2⟩ := index4 t
  show (cfg0.win 4).cut (grid0.coords t) ((dats m 0 c).after 4 t) = _
  rw [after0_4]
  funext j
  rw [View.read_apply]
  refine block_read_1 (outsAt0 m c t.val t.isLt).2.2 (G4 m c) ⟨t.val / 50, by omega⟩ (fun k => ?_) j _ ?_ ?_
  · rw [Cert.KernelIdeal.Val.outs_sumsq m c t k, half_filter t ht]
    rfl
  · show win0_4.index t 0 * 1 + 1 * (j 0).val = t.val / 50
    have : (j 0).val < 1 := (j 0).isLt
    rw [e0]; omega
  · show win0_4.index t 1 * 128 + 1 * (j 1).val = (j 1).val
    rw [e1]; omega

/-- An index of the sums-of-squares array is in point `t`'s block iff each coordinate is in the block's range on its axis. -/
theorem mem_blk4 (t : Fin cfg0.N) (i : (⟨3, ![2, 128, 1]⟩ : Shape).Idx) :
    i ∈ ((cfg0.win 4).blk t).view.set ↔ ∀ a : Fin 3, win0_4.index t a * S1x128x1.size a ≤ (i a).val ∧ (i a).val < win0_4.index t a * S1x128x1.size a + S1x128x1.size a := by
  show i ∈ ((View.whole main_v1_2).slice (win0_4.rect t)).set ↔ _
  rw [View.set_slice_whole, Rect.mem_set_unit]
  exact Iff.rfl

/-- Every index of the sums-of-squares array is under the block written back after the last tile of its half. -/
theorem cover4 (i : (⟨3, ![2, 128, 1]⟩ : Shape).Idx) :
    ∃ t : Fin cfg0.N, (cfg0.win 4).flush t = true ∧ i ∈ ((cfg0.win 4).blk t).view.set := by
  have hi0 : (i 0).val < 2 := (i 0).isLt
  have hi1 : (i 1).val < 128 := (i 1).isLt
  have hi2 : (i 2).val < 1 := (i 2).isLt
  refine ⟨⟨50 * (i 0).val + 49, last_lt _ hi0⟩, (flush0_4 _).mpr (by show (50 * (i 0).val + 49) % 50 = 49; omega), ?_⟩
  rw [mem_blk4]
  obtain ⟨e0, e1, e2⟩ := index4 ⟨50 * (i 0).val + 49, last_lt _ hi0⟩
  intro a
  match a with
  | ⟨0, _⟩ => show win0_4.index _ (0 : Fin 3) * 1 ≤ (i 0).val ∧ (i 0).val < win0_4.index _ (0 : Fin 3) * 1 + 1; rw [e0]; show (50 * (i 0).val + 49) / 50 * 1 ≤ (i 0).val ∧ (i 0).val < (50 * (i 0).val + 49) / 50 * 1 + 1; omega
  | ⟨1, _⟩ => show win0_4.index _ (1 : Fin 3) * 128 ≤ (i 1).val ∧ (i 1).val < win0_4.index _ (1 : Fin 3) * 128 + 128; rw [e1]; omega
  | ⟨2, _⟩ => show win0_4.index _ (2 : Fin 3) * 1 ≤ (i 2).val ∧ (i 2).val < win0_4.index _ (2 : Fin 3) * 1 + 1; rw [e2]; omega

/-- The sums-of-squares array after the region. -/
theorem final4 (c : Dev nD) : (dats m 0 c).arrAt 4 cfg0.N = G4 m c :=
  (dats m 0 c).arrAt_eq_of_cover 4 (G4 m c) (fun t hf => flushed4_eq m c t hf) cover4

theorem arr4_apply (c : Dev nD) (h : Fin 2) (k : Fin 128) :
    (dats m 0 c).arrAt 4 cfg0.N (ix3 h k (0 : Fin 1))
      = ∑ s ∈ (Finset.univ.filter fun s : Fin cfg0.N => s.val / 50 = h.val), Cert.Spec.tileSumsq (iblk m c 0 s) (iblk m c 1 s) k := by
  rw [final4]
  rfl

end Cert.KernelIdeal.Arr

end
-- ==== Proof.KIBlocks.lean ====
/-
  The kernel's input blocks as rows of the argument arrays, and the hundred tiles put back together.
  Grid point `t` (0..99) is shown rows 20000 t .. 20000 t + 19999 of the feature array and the same rows of the label
  column; the label column is the label vector re-laid by the one host line before the region, so its row `R` is the
  vector's entry `R`. Summing a tile statistic over the 100 tiles is therefore the statistic of the whole arrays:
  a sum over 2000000 rows regrouped as 100 sums over 20000 rows.
-/
import proofs.«416220_j13005160973096_3_alg».proof.Proof.KIFrameBase
import proofs.«416220_j13005160973096_3_alg».proof.Proof.Spec
import proofs.«416220_j13005160973096_3_alg».proof.Proof.LibColumn
import Idealize.ShloMosaic.Lib.Pipeline.Value
import Idealize.ShloMosaic.Lib.ValueIdx
import Idealize.ShloMosaic.Lib.ValueLayout
import Mathlib.Logic.Equiv.Fin.Basic
import Mathlib.Algebra.BigOperators.Fin

set_option maxRecDepth 16384

noncomputable section

open scoped BigOperators

namespace Cert.KernelIdeal.Blocks

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat Cfg Window)

/-! ## Regrouping a sum over the rows by tiles -/

/-- A sum over `n = a * b` rows is the sum over `a` tiles of the sums over each tile's `b` rows: row `b t + r` is
    row `r` of tile `t`, and every row is such a row exactly once. -/
theorem sum_tiles_rows {M : Type*} [AddCommMonoid M] (a b n : ℕ) (h : a * b = n) (f : Fin n → M)
    (hlt : ∀ (t : Fin a) (r : Fin b), b * t.val + r.val < n) :
    ∑ t : Fin a, ∑ r : Fin b, f ⟨b * t.val + r.val, hlt t r⟩ = ∑ R : Fin n, f R := by
  subst h
  rw [← Equiv.sum_comp finProdFinEquiv f, Fintype.sum_prod_type]
  refine Finset.sum_congr rfl fun t _ => Finset.sum_congr rfl fun r _ => congrArg f (Fin.ext ?_)
  show b * t.val + r.val = r.val + b * t.val
  exact Nat.add_comm _ _

/-- The grid's 100 points times a tile's 20000 rows are the arrays' 2000000 rows. -/
theorem tiles_rows : cfg0.N * 20000 = 2000000 := by rw [show cfg0.N = 100 from N_0]

/-- Row `r` of tile `t` is a row of the arrays. -/
theorem row_lt (t : Fin cfg0.N) (r : Fin 20000) : 20000 * t.val + r.val < 2000000 := by
  have ht : t.val < 100 := lt_of_lt_of_eq t.isLt N_0
  have hr := r.isLt
  omega

/-- Row `r` of tile `t` as a row of the arrays. -/
abbrev rowOf (t : Fin cfg0.N) (r : Fin 20000) : Fin 2000000 := ⟨20000 * t.val + r.val, row_lt t r⟩

/-- A statistic summed tile by tile is the statistic summed over all rows. -/
theorem sum_rowOf {M : Type*} [AddCommMonoid M] (f : Fin 2000000 → M) :
    ∑ t : Fin cfg0.N, ∑ r : Fin 20000, f (rowOf t r) = ∑ R : Fin 2000000, f R :=
  sum_tiles_rows cfg0.N 20000 2000000 tiles_rows f row_lt

/-! ## The block index maps over the grid -/

/-- The feature window's block at point `t` is block row `t`, block column 0 (the index map sends the point
    `(h, j)` to `50 h + j`, the point's own number). -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The label window's likewise. -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

variable (m : (ℓ : Loc nD τ sig) → Buf (Elt Ideal) ℓ)

/-! ## The label column the region finds -/

/-- The one host line before the region leaves, in the label window's array, the label vector re-laid as a column. -/
theorem V_main_v0 (c : Dev nD) :
    (V m c main_v0 : S2000000x1.Idx → BitVec 32)
      = shapeCast S2000000x1 (m ((c : Thread nD τ).loc main_arg1)) Facts₀.shapeCasts_S2000000_S2000000x1 := by
  dsimp only [V, V0]
  simp only [hostOps0, List.flatten_cons, List.flatten_nil, List.append_nil]
  after_results
  rfl

/-- Its row `R` is the vector's entry `R`. -/
theorem V_main_v0_apply (c : Dev nD) (R : Fin 2000000) (u : Fin 1) :
    (V m c main_v0 : S2000000x1.Idx → BitVec 32) (ix2 R u) = m ((c : Thread nD τ).loc main_arg1) (ix1 R) := by
  rw [V_main_v0]
  exact Cert.LibColumn.shapeCast_a_a1_apply _ _ R u

/-! ## The blocks as rows of the arrays -/

/-- Row `r`, column `d` of the feature block at point `t` is row `20000 t + r` of the feature array. -/
theorem iblk0_apply (c : Dev nD) (t : Fin cfg0.N) (r : Fin 20000) (d : Fin 64) (R : Fin 2000000) (hR : R.val = 20000 * t.val + r.val) :
    iblk m c 0 t (ix2 r d) = m ((c : Thread nD τ).loc main_arg0) (ix2 R d) := by
  obtain ⟨h0, h1⟩ := index0 t
  unfold iblk
  rw [View.read_apply]
  show V m c main_arg0 (((cfg0.win 0).blk t).view.emb (ix2 r d)) = _
  rw [V_main_arg0]
  congr 1
  funext a
  apply Fin.ext
  match a with
  | ⟨0, _⟩ => show win0_0.index t 0 * 20000 + 1 * r.val = R.val; rw [h0, hR]; omega
  | ⟨1, _⟩ => show win0_0.index t 1 * 64 + 1 * d.val = d.val; rw [h1]; omega

/-- Row `r` of the label block at point `t` is entry `20000 t + r` of the label vector. -/
theorem iblk1_apply (c : Dev nD) (t : Fin cfg0.N) (r : Fin 20000) (R : Fin 2000000) (hR : R.val = 20000 * t.val + r.val) :
    iblk m c 1 t (ix2 r (0 : Fin 1)) = m ((c : Thread nD τ).loc main_arg1) (ix1 R) := by
  obtain ⟨h0, h1⟩ := index1 t
  refine Eq.trans ?_ (V_main_v0_apply m c R (0 : Fin 1))
  unfold iblk
  rw [View.read_apply]
  show V m c main_v0 (((cfg0.win 1).blk t).view.emb (ix2 r (0 : Fin 1))) = V m c main_v0 (ix2 R (0 : Fin 1))
  congr 1
  funext a
  apply Fin.ext
  match a with
  | ⟨0, _⟩ => show win0_1.index t 0 * 20000 + 1 * r.val = R.val; rw [h0, hR]; omega
  | ⟨1, _⟩ => show win0_1.index t 1 * 1 + 1 * 0 = 0; rw [h1]

/-! ## The tiles put back together -/

/-- The tiles' counts add up to the whole array's. -/
theorem counts_tiles (c : Dev nD) (k : Fin 128) :
    ∑ t : Fin cfg0.N, Cert.Spec.tileCounts (iblk m c 1 t) k = Cert.Spec.counts (m ((c : Thread nD τ).loc main_arg1)) k := by
  unfold Cert.Spec.tileCounts Cert.Spec.counts
  rw [← sum_rowOf (fun R => Cert.Spec.ind (m ((c : Thread nD τ).loc main_arg1) (ix1 R)) k.val)]
  refine Finset.sum_congr rfl fun t _ => Finset.sum_congr rfl fun r _ => ?_
  exact congrArg (fun w => Cert.Spec.ind w k.val) (iblk1_apply m c t r (rowOf t r) rfl)

/-- The tiles' sums add up to the whole array's. -/
theorem sums_tiles (c : Dev nD) (k : Fin 128) (d : Fin 64) :
    ∑ t : Fin cfg0.N, Cert.Spec.tileSums (iblk m c 0 t) (iblk m c 1 t) k d
      = Cert.Spec.sums (m ((c : Thread nD τ).loc main_arg0)) (m ((c : Thread nD τ).loc main_arg1)) k d := by
  unfold Cert.Spec.tileSums Cert.Spec.sums
  rw [← sum_rowOf (fun R => Cert.Spec.ind (m ((c : Thread nD τ).loc main_arg1) (ix1 R)) k.val
      * m ((c : Thread nD τ).loc main_arg0) (ix2 R d))]
  refine Finset.sum_congr rfl fun t _ => Finset.sum_congr rfl fun r _ => ?_
  exact congrArg₂ (fun w x => Cert.Spec.ind w k.val * x) (iblk1_apply m c t r (rowOf t r) rfl)
    (iblk0_apply m c t r d (rowOf t r) rfl)

/-- The sums of squares regrouped, over any arrays and any family of tiles that shows their rows. -/
theorem sumsq_regroup (z : (⟨2, ![2000000, 64]⟩ : Shape).Idx → EReal) (lab : (⟨1, ![2000000]⟩ : Shape).Idx → BitVec 32)
    (x0 : Fin cfg0.N → (⟨2, ![20000, 64]⟩ : Shape).Idx → EReal) (x1 : Fin cfg0.N → (⟨2, ![20000, 1]⟩ : Shape).Idx → BitVec 32)
    (h0 : ∀ t r d, x0 t (ix2 r d) = z (ix2 (rowOf t r) d)) (h1 : ∀ t r, x1 t (ix2 r (0 : Fin 1)) = lab (ix1 (rowOf t r)))
    (k : Fin 128) : ∑ t : Fin cfg0.N, Cert.Spec.tileSumsq (x0 t) (x1 t) k = Cert.Spec.sumsq z lab k := by
  unfold Cert.Spec.tileSumsq Cert.Spec.sumsq
  rw [← sum_rowOf (fun R => Cert.Spec.ind (lab (ix1 R)) k.val * ∑ d : Fin 64, z (ix2 R d) * z (ix2 R d))]
  refine Finset.sum_congr rfl fun t _ => Finset.sum_congr rfl fun r _ => ?_
  rw [h1 t r]
  refine congrArg _ (Finset.sum_congr rfl fun d _ => ?_)
  rw [h0 t r d]

/-- The tiles' sums of squares add up to the whole array's. -/
theorem sumsq_tiles (c : Dev nD) (k : Fin 128) :
    ∑ t : Fin cfg0.N, Cert.Spec.tileSumsq (iblk m c 0 t) (iblk m c 1 t) k
      = Cert.Spec.sumsq (m ((c : Thread nD τ).loc main_arg0)) (m ((c : Thread nD τ).loc main_arg1)) k :=
  sumsq_regroup _ _ (fun t => iblk m c 0 t) (fun t => iblk m c 1 t)
    (fun t r d => iblk0_apply m c t r d (rowOf t r) rfl) (fun t r => iblk1_apply m c t r (rowOf t r) rfl) k

end Cert.KernelIdeal.Blocks

end
-- ==== Proof.RefTerms.lean ====
/-
  The reference's three class statistics, spelled exactly as they stand inside its run's result: the segment ids
  (the label where it is non-negative, else the extra segment 128, as a column of scatter indices), and the three
  accumulating scatters into 129 segments, each cut back to its first 128 — of ones (the counts), of the feature rows
  (the sums) and of the rows' squared norms (the sums of squares). Everything after these three in the reference is a
  function of them alone, and is the same host computation the kernel's program runs on its own three arrays.
-/
import proofs.«416220_j13005160973096_3_alg».proof.ReferenceIdeal
import proofs.«416220_j13005160973096_3_alg».proof.Proof.Gen.ReferenceIdeal

noncomputable section

namespace Cert.ReferenceIdeal.Terms

open Cert.ReferenceIdeal Cert.ReferenceIdeal.Gen Idealize.ShloMosaic

variable {F : FTy → Type} [FloatOps F]

/-- The segment ids as the scatters' index column: the label where it is at least 0, else 128. -/
def seg (lab : IVec S2000000 32) : IVec S2000000x1 32 :=
  broadcastInDim S2000000x1 ![0] bcast_S2000000_S2000000x1_0 (select (cmpi .sge lab (broadcastInDim S2000000 ![] bcast_S_S2000000 (constantI S_ 32 0#32))) lab (broadcastInDim S2000000 ![] bcast_S_S2000000 (id (constantI S_ 32 128#32))))

/-- The counts: ones scattered by segment into 129 zeros, the first 128 kept. -/
def counts (lab : IVec S2000000 32) : FVec F S128 .f32 :=
  extractStridedSlice S128 ![0] (Host.scatterAdd scatter_S129_S2000000x1_S2000000_n_0_0_1 (broadcastInDim S129 ![] bcast_S_S129 (constant S_ .f32 0x00000000#32)) (seg lab) (broadcastInDim S2000000 ![] bcast_S_S2000000 (constant S_ .f32 0x3F800000#32))) slices_S129_S128_0

/-- The sums: the feature rows scattered by segment into 129 x 64 zeros, the first 128 rows kept. -/
def sums (z : FVec F S2000000x64 .f32) (lab : IVec S2000000 32) : FVec F S128x64 .f32 :=
  extractStridedSlice S128x64 ![0, 0] (Host.scatterAdd scatter_S129x64_S2000000x1_S2000000x64_1_0_0_1 (broadcastInDim S129x64 ![] bcast_S_S129x64 (constant S_ .f32 0x00000000#32)) (seg lab) z) slices_S129x64_S128x64_0_0

/-- The sums of squares: each row's squared norm scattered by segment into 129 zeros, the first 128 kept. -/
def sumsq (z : FVec F S2000000x64 .f32) (lab : IVec S2000000 32) : FVec F S128 .f32 :=
  extractStridedSlice S128 ![0] (Host.scatterAdd scatter_S129_S2000000x1_S2000000_n_0_0_1 (broadcastInDim S129 ![] bcast_S_S129 (constant S_ .f32 0x00000000#32)) (seg lab) (Host.reduceAdd (mulf z z) (constant S_ .f32 0x00000000#32) reducesTo_S2000000x64_S2000000_d1 h_S_)) slices_S129_S128_0

end Cert.ReferenceIdeal.Terms

end
-- ==== Proof.TailBridge.lean ====
/-
  The host computation both programs share. After its three class statistics are there — the kernel's program has them
  after 8 host lines behind the region (each of the three region outputs summed over its two halves, two of them re-laid
  from a column to a vector), the reference after its first 27 lines (the three scatters) — each program runs the same
  103 operations on them: the class means, the within-class variances, the pairwise distances of the means and the
  two masked averages. So if the statistics agree, the scalar results agree; nothing of the 103 operations is opened
  beyond matching them one against one.
-/
import proofs.«416220_j13005160973096_3_alg».proof.Proof.KIFrameBase
import proofs.«416220_j13005160973096_3_alg».proof.Proof.RefRun
import proofs.«416220_j13005160973096_3_alg».proof.Proof.RefTerms
import Idealize.ShloMosaic.Lib.Pipeline.Value
import Idealize.ShloMosaic.Lib.ValueIdx
import Idealize.ShloMosaic.Lib.ValueLayout
import Idealize.ShloMosaic.PureOps.Ideal.Laws

noncomputable section

open scoped BigOperators

/-! ## The kernel program's three statistics, from the region's three output arrays -/

namespace Cert.KernelIdeal.Terms

open Cert.KernelIdeal Cert.KernelIdeal.Gen Idealize.ShloMosaic

variable {F : FTy → Type} [FloatOps F]

/-- The counts: the 2 x 128 x 1 partial counts summed over the two halves, the column re-laid as a vector. -/
def counts (A2 : FVec F S2x128x1 .f32) : FVec F S128 .f32 :=
  shapeCast S128 (Host.reduceAdd A2 (constant S_ .f32 0x00000000#32) reducesTo_S2x128x1_S128x1_d0 h_S_) shapeCasts_S128x1_S128

/-- The sums: the 2 x 128 x 64 partial sums summed over the two halves. -/
def sums (A3 : FVec F S2x128x64 .f32) : FVec F S128x64 .f32 :=
  Host.reduceAdd A3 (constant S_ .f32 0x00000000#32) reducesTo_S2x128x64_S128x64_d0 h_S_

/-- The sums of squares: as the counts. -/
def sumsq (A4 : FVec F S2x128x1 .f32) : FVec F S128 .f32 :=
  shapeCast S128 (Host.reduceAdd A4 (constant S_ .f32 0x00000000#32) reducesTo_S2x128x1_S128x1_d0 h_S_) shapeCasts_S128x1_S128

/-- The initial value of each of the three sums is the bit pattern of zero: the extended real 0. -/
theorem init_zero : (constant S_ .f32 0x00000000#32 : FVec Ideal S_ .f32) (Shape.Idx.first h_S_) = 0 :=
  Ideal.ofBits_zero_f32

open Idealize.ShloMosaic.ValueIdx in
/-- A 2 x 128 x 1 array summed over its first axis from zero: at row `k` of the 128 x 1 column, the two halves' entries added. -/
theorem halves_col (A : FVec Ideal S2x128x1 .f32) (k : Fin 128) :
    Host.reduceAdd A (constant S_ .f32 0x00000000#32) reducesTo_S2x128x1_S128x1_d0 h_S_ (ix2 k (0 : Fin 1))
      = A (ix3 (0 : Fin 2) k (0 : Fin 1)) + A (ix3 (1 : Fin 2) k (0 : Fin 1)) := by
  simp only [Host.reduceAdd, Ideal.hostReduceAdd_def]
  rw [Ideal.hostReduceAdd_single reducesTo_S2x128x1_S128x1_d0 (by decide), init_zero, zero_add]
  refine (Fin.sum_univ_two _).trans ?_
  congr 1 <;> exact congrArg A (funext fun a => Fin.ext (by match a with | ⟨0, _⟩ => rfl | ⟨1, _⟩ => rfl | ⟨2, _⟩ => rfl))

open Idealize.ShloMosaic.ValueIdx in
/-- The 128 x 1 column re-laid as a vector reads, at `k`, the column at `(k, 0)`: the same row-major position. -/
theorem col_as_vec (x : FVec Ideal S128x1 .f32) (k : Fin 128) :
    shapeCast S128 x shapeCasts_S128x1_S128 (ix1 k) = x (ix2 k (0 : Fin 1)) :=
  shapeCast_apply x shapeCasts_S128x1_S128 (ix1 k) (ix2 k (0 : Fin 1)) (by
    rw [Shape.rowMajor_val_two, Shape.rowMajor_val_one]
    show k.val * 1 + 0 = k.val
    omega)

open Idealize.ShloMosaic.ValueIdx in
/-- At the ideal instance the counts at class `k` are the two halves' partial counts added. -/
theorem counts_apply (A2 : FVec Ideal S2x128x1 .f32) (k : Fin 128) :
    counts (F := Ideal) A2 (ix1 k) = A2 (ix3 (0 : Fin 2) k (0 : Fin 1)) + A2 (ix3 (1 : Fin 2) k (0 : Fin 1)) := by
  unfold counts
  rw [col_as_vec, halves_col]

open Idealize.ShloMosaic.ValueIdx in
/-- The sums at class `k` and column `d` are the two halves' partial sums added. -/
theorem sums_apply (A3 : FVec Ideal S2x128x64 .f32) (k : Fin 128) (d : Fin 64) :
    sums (F := Ideal) A3 (ix2 k d) = A3 (ix3 (0 : Fin 2) k d) + A3 (ix3 (1 : Fin 2) k d) := by
  unfold sums
  simp only [Host.reduceAdd, Ideal.hostReduceAdd_def]
  rw [Ideal.hostReduceAdd_single reducesTo_S2x128x64_S128x64_d0 (by decide), init_zero, zero_add]
  refine (Fin.sum_univ_two _).trans ?_
  congr 1 <;> exact congrArg A3 (funext fun a => Fin.ext (by match a with | ⟨0, _⟩ => rfl | ⟨1, _⟩ => rfl | ⟨2, _⟩ => rfl))

open Idealize.ShloMosaic.ValueIdx in
/-- The sums of squares at class `k` are the two halves' partial sums of squares added. -/
theorem sumsq_apply (A4 : FVec Ideal S2x128x1 .f32) (k : Fin 128) :
    sumsq (F := Ideal) A4 (ix1 k) = A4 (ix3 (0 : Fin 2) k (0 : Fin 1)) + A4 (ix3 (1 : Fin 2) k (0 : Fin 1)) := by
  unfold sumsq
  rw [col_as_vec, halves_col]

end Cert.KernelIdeal.Terms

/-! ## The bridge -/

namespace Cert.TailBridge

open Idealize.ShloMosaic Idealize.ShloMosaic.TcCoe Idealize.SL.Sem Idealize.ShloMosaic.StableHlo

variable {F : FTy → Type} [FloatOps F]

/-! ### The two prefixes: each program's three statistics as terms over what it is entered with -/

/-- The kernel program's first 8 operations leave the counts, the sums and the sums of squares of the contents found at the
    region's three output arrays. -/
theorem k_counts (W : Valuation Cert.KernelIdeal.τ Cert.KernelIdeal.sig (Elt F)) :
    StableHlo.after (List.take 8 (Cert.KernelIdeal.Gen.hostOps1 (F := F))) W (Proc.devRef .tc Cert.KernelIdeal.main_v3)
      = Cert.KernelIdeal.Terms.counts (W (Proc.devRef .tc Cert.KernelIdeal.main_v1_0)) := by
  simp only [Cert.KernelIdeal.Gen.hostOps1, List.take_succ_cons, List.take_zero]
  after_results
  rfl

theorem k_sums (W : Valuation Cert.KernelIdeal.τ Cert.KernelIdeal.sig (Elt F)) :
    StableHlo.after (List.take 8 (Cert.KernelIdeal.Gen.hostOps1 (F := F))) W (Proc.devRef .tc Cert.KernelIdeal.main_v4)
      = Cert.KernelIdeal.Terms.sums (W (Proc.devRef .tc Cert.KernelIdeal.main_v1_1)) := by
  simp only [Cert.KernelIdeal.Gen.hostOps1, List.take_succ_cons, List.take_zero]
  after_results
  rfl

theorem k_sumsq (W : Valuation Cert.KernelIdeal.τ Cert.KernelIdeal.sig (Elt F)) :
    StableHlo.after (List.take 8 (Cert.KernelIdeal.Gen.hostOps1 (F := F))) W (Proc.devRef .tc Cert.KernelIdeal.main_v6)
      = Cert.KernelIdeal.Terms.sumsq (W (Proc.devRef .tc Cert.KernelIdeal.main_v1_2)) := by
  simp only [Cert.KernelIdeal.Gen.hostOps1, List.take_succ_cons, List.take_zero]
  after_results
  rfl

set_option maxRecDepth 8192 in
/-- The reference's first 27 operations leave its three statistics of the two launch arguments. -/
theorem r_counts (m' : (ℓ : Loc Cert.ReferenceIdeal.nD Cert.ReferenceIdeal.τ Cert.ReferenceIdeal.sig) → Buf (Elt F) ℓ) (c : Dev Cert.ReferenceIdeal.nD) :
    StableHlo.after (List.take 27 (Cert.ReferenceIdeal.ValueP.ops (F := F))) (launchContents m' c) (Proc.devRef .tc Cert.ReferenceIdeal.main_v7)
      = Cert.ReferenceIdeal.Terms.counts (m' ((c.tc : Thread Cert.ReferenceIdeal.nD Cert.ReferenceIdeal.τ).loc Cert.ReferenceIdeal.main_arg1)) := by
  simp only [Cert.ReferenceIdeal.ValueP.ops, List.take_succ_cons, List.take_zero]
  after_results_simp
  try simp only [StableHlo.TRef.ofBuf, StableHlo.TRef.toBuf, cast_eq]
  rfl

set_option maxRecDepth 8192 in
theorem r_sums (m' : (ℓ : Loc Cert.ReferenceIdeal.nD Cert.ReferenceIdeal.τ Cert.ReferenceIdeal.sig) → Buf (Elt F) ℓ) (c : Dev Cert.ReferenceIdeal.nD) :
    StableHlo.after (List.take 27 (Cert.ReferenceIdeal.ValueP.ops (F := F))) (launchContents m' c) (Proc.devRef .tc Cert.ReferenceIdeal.main_v11)
      = Cert.ReferenceIdeal.Terms.sums (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := by
  simp only [Cert.ReferenceIdeal.ValueP.ops, List.take_succ_cons, List.take_zero]
  after_results_simp
  try simp only [StableHlo.TRef.ofBuf, StableHlo.TRef.toBuf, cast_eq]
  rfl

set_option maxRecDepth 8192 in
theorem r_sumsq (m' : (ℓ : Loc Cert.ReferenceIdeal.nD Cert.ReferenceIdeal.τ Cert.ReferenceIdeal.sig) → Buf (Elt F) ℓ) (c : Dev Cert.ReferenceIdeal.nD) :
    StableHlo.after (List.take 27 (Cert.ReferenceIdeal.ValueP.ops (F := F))) (launchContents m' c) (Proc.devRef .tc Cert.ReferenceIdeal.main_v17)
      = Cert.ReferenceIdeal.Terms.sumsq (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := by
  simp only [Cert.ReferenceIdeal.ValueP.ops, List.take_succ_cons, List.take_zero]
  after_results_simp
  try simp only [StableHlo.TRef.ofBuf, StableHlo.TRef.toBuf, cast_eq]
  rfl

/-! ### The 103 shared operations, in five stretches on each side -/

/-- The kernel program's stretches: the rest of the first host stretch, then the later ones grouped. -/
def kS1 : List (HloOp KernelIdeal.τ KernelIdeal.sig (Elt F)) := List.drop 8 KernelIdeal.Gen.hostOps1
def kS2 : List (HloOp KernelIdeal.τ KernelIdeal.sig (Elt F)) :=
  KernelIdeal.Gen.hostOps1_1 ++ (KernelIdeal.Gen.hostOps1_2 ++ KernelIdeal.Gen.hostOps1_3)
def kS3 : List (HloOp KernelIdeal.τ KernelIdeal.sig (Elt F)) :=
  KernelIdeal.Gen.hostOps1_4 ++ KernelIdeal.Gen.hostOps1_5
def kS4 : List (HloOp KernelIdeal.τ KernelIdeal.sig (Elt F)) :=
  KernelIdeal.Gen.hostOps1_6 ++ (KernelIdeal.Gen.hostOps1_7 ++ (KernelIdeal.Gen.hostOps1_8 ++ KernelIdeal.Gen.hostOps1_9))
def kS5 : List (HloOp KernelIdeal.τ KernelIdeal.sig (Elt F)) :=
  KernelIdeal.Gen.hostOps1_10 ++ (KernelIdeal.Gen.hostOps1_11 ++ (KernelIdeal.Gen.hostOps1_12 ++ KernelIdeal.Gen.hostOps1_13))

/-- The reference's stretches: the same cuts, 27 operations later in its list. -/
def rS1 : List (HloOp ReferenceIdeal.τ ReferenceIdeal.sig (Elt F)) := List.take 23 (List.drop 27 ReferenceIdeal.ValueP.ops)
def rS2 : List (HloOp ReferenceIdeal.τ ReferenceIdeal.sig (Elt F)) := List.take 12 (List.drop 50 ReferenceIdeal.ValueP.ops)
def rS3 : List (HloOp ReferenceIdeal.τ ReferenceIdeal.sig (Elt F)) := List.take 25 (List.drop 62 ReferenceIdeal.ValueP.ops)
def rS4 : List (HloOp ReferenceIdeal.τ ReferenceIdeal.sig (Elt F)) := List.take 23 (List.drop 87 ReferenceIdeal.ValueP.ops)
def rS5 : List (HloOp ReferenceIdeal.τ ReferenceIdeal.sig (Elt F)) := List.drop 110 ReferenceIdeal.ValueP.ops

set_option maxRecDepth 16384 in
theorem k_list : (KernelIdeal.Frm.tailOps (F := F)).flatten
    = List.take 8 KernelIdeal.Gen.hostOps1 ++ (kS1 ++ (kS2 ++ (kS3 ++ (kS4 ++ kS5)))) := by
  rfl

set_option maxRecDepth 16384 in
theorem r_list : (ReferenceIdeal.ValueP.ops (F := F))
    = List.take 27 ReferenceIdeal.ValueP.ops ++ (rS1 ++ (rS2 ++ (rS3 ++ (rS4 ++ rS5)))) := by
  rfl

theorem k_split (W : Valuation KernelIdeal.τ KernelIdeal.sig (Elt F)) :
    StableHlo.after (KernelIdeal.Frm.tailOps (F := F)).flatten W
      = StableHlo.after kS5 (StableHlo.after kS4 (StableHlo.after kS3 (StableHlo.after kS2 (StableHlo.after kS1
          (StableHlo.after (List.take 8 KernelIdeal.Gen.hostOps1) W))))) := by
  rw [k_list, StableHlo.after_append, StableHlo.after_append, StableHlo.after_append, StableHlo.after_append, StableHlo.after_append]

theorem r_split (L : Valuation ReferenceIdeal.τ ReferenceIdeal.sig (Elt F)) :
    StableHlo.after (ReferenceIdeal.ValueP.ops (F := F)) L
      = StableHlo.after rS5 (StableHlo.after rS4 (StableHlo.after rS3 (StableHlo.after rS2 (StableHlo.after rS1
          (StableHlo.after (List.take 27 ReferenceIdeal.ValueP.ops) L))))) := by
  conv => lhs; rw [r_list]
  rw [StableHlo.after_append, StableHlo.after_append, StableHlo.after_append, StableHlo.after_append, StableHlo.after_append]

/-! ### Stretch by stretch: equal contents going in, equal contents coming out

Each stretch is opened on both sides to its operations' terms over the contents at its entry; the entry contents are
rewritten to the kernel program's by the hypotheses, and the two terms are then the same operations on the same
arguments. Each lemma carries, besides what its stretch computes for later ones, the buffers a later stretch still reads. -/

/-- Both sides' lists of a stretch as literal lists of operations. -/
local macro "stretch_lists" : tactic =>
  `(tactic| simp only [kS1, kS2, kS3, kS4, kS5, rS1, rS2, rS3, rS4, rS5, ReferenceIdeal.ValueP.ops,
      KernelIdeal.Gen.hostOps1, KernelIdeal.Gen.hostOps1_1, KernelIdeal.Gen.hostOps1_2, KernelIdeal.Gen.hostOps1_3,
      KernelIdeal.Gen.hostOps1_4, KernelIdeal.Gen.hostOps1_5, KernelIdeal.Gen.hostOps1_6, KernelIdeal.Gen.hostOps1_7,
      KernelIdeal.Gen.hostOps1_8, KernelIdeal.Gen.hostOps1_9, KernelIdeal.Gen.hostOps1_10, KernelIdeal.Gen.hostOps1_11,
      KernelIdeal.Gen.hostOps1_12, KernelIdeal.Gen.hostOps1_13,
      List.take_succ_cons, List.take_zero, List.drop_succ_cons, List.drop_zero, List.cons_append, List.nil_append])

set_option maxRecDepth 16384 in
set_option maxHeartbeats 4000000 in
/-- Stretch 1 (23 operations): from the three statistics, the class means, the within-class variances, the two
    masks (count above 0, count above 1), the number of classes with count above 1 and whether there is one. -/
theorem s1 (VR : Valuation ReferenceIdeal.τ ReferenceIdeal.sig (Elt F)) (VK : Valuation KernelIdeal.τ KernelIdeal.sig (Elt F))
    (h7 : VR (Proc.devRef .tc ReferenceIdeal.main_v7) = VK (Proc.devRef .tc KernelIdeal.main_v3))
    (h11 : VR (Proc.devRef .tc ReferenceIdeal.main_v11) = VK (Proc.devRef .tc KernelIdeal.main_v4))
    (h17 : VR (Proc.devRef .tc ReferenceIdeal.main_v17) = VK (Proc.devRef .tc KernelIdeal.main_v6)) :
    StableHlo.after rS1 VR (Proc.devRef .tc ReferenceIdeal.main_v22) = StableHlo.after kS1 VK (Proc.devRef .tc KernelIdeal.main_v11)
    ∧ StableHlo.after rS1 VR (Proc.devRef .tc ReferenceIdeal.main_v26) = StableHlo.after kS1 VK (Proc.devRef .tc KernelIdeal.main_v15)
    ∧ StableHlo.after rS1 VR (Proc.devRef .tc ReferenceIdeal.main_v28) = StableHlo.after kS1 VK (Proc.devRef .tc KernelIdeal.main_v17)
    ∧ StableHlo.after rS1 VR (Proc.devRef .tc ReferenceIdeal.main_v30) = StableHlo.after kS1 VK (Proc.devRef .tc KernelIdeal.main_v19)
    ∧ StableHlo.after rS1 VR (Proc.devRef .tc ReferenceIdeal.main_v32) = StableHlo.after kS1 VK (Proc.devRef .tc KernelIdeal.main_v21)
    ∧ StableHlo.after rS1 VR (Proc.devRef .tc ReferenceIdeal.main_v33) = StableHlo.after kS1 VK (Proc.devRef .tc KernelIdeal.main_v22)
    ∧ StableHlo.after rS1 VR (Proc.devRef .tc ReferenceIdeal.main_cst_11) = StableHlo.after kS1 VK (Proc.devRef .tc KernelIdeal.main_cst_7) := by
  refine ⟨?_, ?_, ?_, ?_, ?_, ?_, ?_⟩ <;>
    (stretch_lists; after_results_simp; (try rw [h7]); (try rw [h11]); (try rw [h17]); first | done | rfl)

set_option maxRecDepth 16384 in
set_option maxHeartbeats 4000000 in
/-- Stretch 2 (12 operations): the mean within-class variance over the classes with count above 1 (zero if there is none). -/
theorem s2 (VR : Valuation ReferenceIdeal.τ ReferenceIdeal.sig (Elt F)) (VK : Valuation KernelIdeal.τ KernelIdeal.sig (Elt F))
    (e1 : VR (Proc.devRef .tc ReferenceIdeal.main_v22) = VK (Proc.devRef .tc KernelIdeal.main_v11))
    (e2 : VR (Proc.devRef .tc ReferenceIdeal.main_v26) = VK (Proc.devRef .tc KernelIdeal.main_v15))
    (e3 : VR (Proc.devRef .tc ReferenceIdeal.main_v28) = VK (Proc.devRef .tc KernelIdeal.main_v17))
    (e4 : VR (Proc.devRef .tc ReferenceIdeal.main_v30) = VK (Proc.devRef .tc KernelIdeal.main_v19))
    (e5 : VR (Proc.devRef .tc ReferenceIdeal.main_v32) = VK (Proc.devRef .tc KernelIdeal.main_v21))
    (e6 : VR (Proc.devRef .tc ReferenceIdeal.main_v33) = VK (Proc.devRef .tc KernelIdeal.main_v22))
    (e7 : VR (Proc.devRef .tc ReferenceIdeal.main_cst_11) = VK (Proc.devRef .tc KernelIdeal.main_cst_7)) :
    StableHlo.after rS2 VR (Proc.devRef .tc ReferenceIdeal.main_v22) = StableHlo.after kS2 VK (Proc.devRef .tc KernelIdeal.main_v11)
    ∧ StableHlo.after rS2 VR (Proc.devRef .tc ReferenceIdeal.main_v28) = StableHlo.after kS2 VK (Proc.devRef .tc KernelIdeal.main_v17)
    ∧ StableHlo.after rS2 VR (Proc.devRef .tc ReferenceIdeal.main_v39) = StableHlo.after kS2 VK (Proc.devRef .tc KernelIdeal.main_v28) := by
  refine ⟨?_, ?_, ?_⟩ <;>
    (stretch_lists; after_results_simp; (try rw [e1]); (try rw [e2]); (try rw [e3]); (try rw [e4]); (try rw [e5]); (try rw [e6]); (try rw [e7]);
     first | done | rfl)

set_option maxRecDepth 16384 in
set_option maxHeartbeats 4000000 in
/-- Stretch 3 (25 operations): the squared distances between the class means, and the strict upper triangle's mask. -/
theorem s3 (VR : Valuation ReferenceIdeal.τ ReferenceIdeal.sig (Elt F)) (VK : Valuation KernelIdeal.τ KernelIdeal.sig (Elt F))
    (e1 : VR (Proc.devRef .tc ReferenceIdeal.main_v22) = VK (Proc.devRef .tc KernelIdeal.main_v11))
    (e2 : VR (Proc.devRef .tc ReferenceIdeal.main_v28) = VK (Proc.devRef .tc KernelIdeal.main_v17))
    (e3 : VR (Proc.devRef .tc ReferenceIdeal.main_v39) = VK (Proc.devRef .tc KernelIdeal.main_v28)) :
    StableHlo.after rS3 VR (Proc.devRef .tc ReferenceIdeal.main_v28) = StableHlo.after kS3 VK (Proc.devRef .tc KernelIdeal.main_v17)
    ∧ StableHlo.after rS3 VR (Proc.devRef .tc ReferenceIdeal.main_v39) = StableHlo.after kS3 VK (Proc.devRef .tc KernelIdeal.main_v28)
    ∧ StableHlo.after rS3 VR (Proc.devRef .tc ReferenceIdeal.main_v51) = StableHlo.after kS3 VK (Proc.devRef .tc KernelIdeal.main_v40)
    ∧ StableHlo.after rS3 VR (Proc.devRef .tc ReferenceIdeal.main_v53) = StableHlo.after kS3 VK (Proc.devRef .tc KernelIdeal.main_v42) := by
  refine ⟨?_, ?_, ?_, ?_⟩ <;>
    (stretch_lists; after_results_simp; (try rw [e1]); (try rw [e2]); (try rw [e3]); first | done | rfl)

set_option maxRecDepth 16384 in
set_option maxHeartbeats 4000000 in
/-- Stretch 4 (23 operations): the pairs of present classes, their number, and their distances (zero elsewhere). -/
theorem s4 (VR : Valuation ReferenceIdeal.τ ReferenceIdeal.sig (Elt F)) (VK : Valuation KernelIdeal.τ KernelIdeal.sig (Elt F))
    (e1 : VR (Proc.devRef .tc ReferenceIdeal.main_v28) = VK (Proc.devRef .tc KernelIdeal.main_v17))
    (e2 : VR (Proc.devRef .tc ReferenceIdeal.main_v39) = VK (Proc.devRef .tc KernelIdeal.main_v28))
    (e3 : VR (Proc.devRef .tc ReferenceIdeal.main_v51) = VK (Proc.devRef .tc KernelIdeal.main_v40))
    (e4 : VR (Proc.devRef .tc ReferenceIdeal.main_v53) = VK (Proc.devRef .tc KernelIdeal.main_v42)) :
    StableHlo.after rS4 VR (Proc.devRef .tc ReferenceIdeal.main_v28) = StableHlo.after kS4 VK (Proc.devRef .tc KernelIdeal.main_v17)
    ∧ StableHlo.after rS4 VR (Proc.devRef .tc ReferenceIdeal.main_v39) = StableHlo.after kS4 VK (Proc.devRef .tc KernelIdeal.main_v28)
    ∧ StableHlo.after rS4 VR (Proc.devRef .tc ReferenceIdeal.main_v65) = StableHlo.after kS4 VK (Proc.devRef .tc KernelIdeal.main_v54)
    ∧ StableHlo.after rS4 VR (Proc.devRef .tc ReferenceIdeal.main_v66) = StableHlo.after kS4 VK (Proc.devRef .tc KernelIdeal.main_v55)
    ∧ StableHlo.after rS4 VR (Proc.devRef .tc ReferenceIdeal.main_v67) = StableHlo.after kS4 VK (Proc.devRef .tc KernelIdeal.main_v56) := by
  refine ⟨?_, ?_, ?_, ?_, ?_⟩ <;>
    (stretch_lists; after_results_simp; (try rw [e1]); (try rw [e2]); (try rw [e3]); (try rw [e4]); first | done | rfl)

set_option maxRecDepth 16384 in
set_option maxHeartbeats 4000000 in
/-- Stretch 5 (20 operations): minus the mean distance over the pairs, halved, added to the mean variance; zero unless at
    least two classes are present. -/
theorem s5 (VR : Valuation ReferenceIdeal.τ ReferenceIdeal.sig (Elt F)) (VK : Valuation KernelIdeal.τ KernelIdeal.sig (Elt F))
    (e1 : VR (Proc.devRef .tc ReferenceIdeal.main_v28) = VK (Proc.devRef .tc KernelIdeal.main_v17))
    (e2 : VR (Proc.devRef .tc ReferenceIdeal.main_v39) = VK (Proc.devRef .tc KernelIdeal.main_v28))
    (e3 : VR (Proc.devRef .tc ReferenceIdeal.main_v65) = VK (Proc.devRef .tc KernelIdeal.main_v54))
    (e4 : VR (Proc.devRef .tc ReferenceIdeal.main_v66) = VK (Proc.devRef .tc KernelIdeal.main_v55))
    (e5 : VR (Proc.devRef .tc ReferenceIdeal.main_v67) = VK (Proc.devRef .tc KernelIdeal.main_v56)) :
    StableHlo.after rS5 VR (Proc.devRef .tc ReferenceIdeal.main_v79) = StableHlo.after kS5 VK (Proc.devRef .tc KernelIdeal.main_v68) := by
  stretch_lists; after_results_simp; (try rw [e1]); (try rw [e2]); (try rw [e3]); (try rw [e4]); (try rw [e5])
  first | done | rfl

/-! ### The bridge -/

/-- If the kernel program's three statistics (of the contents `W` holds at the region's three output arrays) are the
    reference's (of its two arguments), then the host lines after the region leave in the kernel program's result buffer
    what the reference's 130 operations leave in its own. -/
theorem bridge (W : Valuation Cert.KernelIdeal.τ Cert.KernelIdeal.sig (Elt F))
    (m' : (ℓ : Loc Cert.ReferenceIdeal.nD Cert.ReferenceIdeal.τ Cert.ReferenceIdeal.sig) → Buf (Elt F) ℓ) (c : Dev Cert.ReferenceIdeal.nD)
    (hc : Cert.KernelIdeal.Terms.counts (W (Proc.devRef .tc Cert.KernelIdeal.main_v1_0))
        = Cert.ReferenceIdeal.Terms.counts (m' ((c.tc : Thread Cert.ReferenceIdeal.nD Cert.ReferenceIdeal.τ).loc Cert.ReferenceIdeal.main_arg1)))
    (hs : Cert.KernelIdeal.Terms.sums (W (Proc.devRef .tc Cert.KernelIdeal.main_v1_1))
        = Cert.ReferenceIdeal.Terms.sums (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1)))
    (hq : Cert.KernelIdeal.Terms.sumsq (W (Proc.devRef .tc Cert.KernelIdeal.main_v1_2))
        = Cert.ReferenceIdeal.Terms.sumsq (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))) :
    StableHlo.after (Cert.KernelIdeal.Frm.tailOps (F := F)).flatten W (Proc.devRef .tc Cert.KernelIdeal.main_v68)
      = StableHlo.after (Cert.ReferenceIdeal.ValueP.ops (F := F)) (launchContents m' c) (Proc.devRef .tc Cert.ReferenceIdeal.main_v79) := by
  rw [k_split, r_split]
  -- after the two prefixes the three statistics agree: each side's is its own term, and the terms are equal by hypothesis
  obtain ⟨a1, a2, a3, a4, a5, a6, a7⟩ := s1
    (StableHlo.after (List.take 27 ReferenceIdeal.ValueP.ops) (launchContents m' c))
    (StableHlo.after (List.take 8 KernelIdeal.Gen.hostOps1) W)
    (by rw [r_counts, k_counts, hc]) (by rw [r_sums, k_sums, hs]) (by rw [r_sumsq, k_sumsq, hq])
  -- and the agreement is carried through the five stretches to the result buffer
  obtain ⟨b1, b2, b3⟩ := s2 _ _ a1 a2 a3 a4 a5 a6 a7
  obtain ⟨c1, c2, c3, c4⟩ := s3 _ _ b1 b2 b3
  obtain ⟨d1, d2, d3, d4, d5⟩ := s4 _ _ c1 c2 c3 c4
  exact (s5 _ _ d1 d2 d3 d4 d5).symm

end Cert.TailBridge

end
-- ==== Proof.KIStats.lean ====
/-
  The class statistics the host lines behind the region make of the region's three arrays are the plain statistics of
  the whole input arrays: a class's statistic is the array's entry of half 0 plus that of half 1; each half's entry is
  the sum of the tile statistics over the 50 grid points of that half; the two halves together are all 100 points;
  and the tile statistics of all points add up to the whole arrays' statistic.
-/
import proofs.«416220_j13005160973096_3_alg».proof.Proof.KIArrays
import proofs.«416220_j13005160973096_3_alg».proof.Proof.KIBlocks
import proofs.«416220_j13005160973096_3_alg».proof.Proof.TailBridge
import proofs.«416220_j13005160973096_3_alg».proof.Proof.Spec

set_option maxRecDepth 16384

noncomputable section

open scoped BigOperators

namespace Cert.KernelIdeal.Stats

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat Cfg Window)

/-- Over the 100 grid points, the points of half 0 and the points of half 1 are all the points. -/
theorem sum_halves (f : Fin cfg0.N → EReal) :
    (∑ s ∈ (Finset.univ.filter fun s : Fin cfg0.N => s.val / 50 = (0 : Fin 2).val), f s)
      + (∑ s ∈ (Finset.univ.filter fun s : Fin cfg0.N => s.val / 50 = (1 : Fin 2).val), f s) = ∑ s : Fin cfg0.N, f s := by
  have hN : cfg0.N = 100 := N_0
  have h1 : (Finset.univ.filter fun s : Fin cfg0.N => s.val / 50 = (1 : Fin 2).val)
      = (Finset.univ.filter fun s : Fin cfg0.N => ¬ s.val / 50 = (0 : Fin 2).val) := by
    apply Finset.filter_congr
    intro s _
    have hs : s.val < 100 := lt_of_lt_of_eq s.isLt hN
    show s.val / 50 = 1 ↔ ¬ s.val / 50 = 0
    omega
  rw [h1]
  exact Finset.sum_filter_add_sum_filter_not Finset.univ _ f

variable (m : (ℓ : Loc nD τ sig) → Buf (Elt Ideal) ℓ)

theorem kcounts_apply (c : Dev nD) (k : Fin 128) :
    Cert.KernelIdeal.Terms.counts (F := Ideal) ((dats m 0 c).arrAt 2 cfg0.N) (ix1 k)
      = Cert.Spec.counts (m ((c : Thread nD τ).loc main_arg1)) k := by
  rw [Cert.KernelIdeal.Terms.counts_apply, Cert.KernelIdeal.Arr.arr2_apply m c 0 k, Cert.KernelIdeal.Arr.arr2_apply m c 1 k,
    sum_halves, Cert.KernelIdeal.Blocks.counts_tiles]

theorem ksums_apply (c : Dev nD) (k : Fin 128) (d : Fin 64) :
    Cert.KernelIdeal.Terms.sums (F := Ideal) ((dats m 0 c).arrAt 3 cfg0.N) (ix2 k d)
      = Cert.Spec.sums (m ((c : Thread nD τ).loc main_arg0)) (m ((c : Thread nD τ).loc main_arg1)) k d := by
  rw [Cert.KernelIdeal.Terms.sums_apply, Cert.KernelIdeal.Arr.arr3_apply m c 0 k d, Cert.KernelIdeal.Arr.arr3_apply m c 1 k d,
    sum_halves, Cert.KernelIdeal.Blocks.sums_tiles]

theorem ksumsq_apply (c : Dev nD) (k : Fin 128) :
    Cert.KernelIdeal.Terms.sumsq (F := Ideal) ((dats m 0 c).arrAt 4 cfg0.N) (ix1 k)
      = Cert.Spec.sumsq (m ((c : Thread nD τ).loc main_arg0)) (m ((c : Thread nD τ).loc main_arg1)) k := by
  rw [Cert.KernelIdeal.Terms.sumsq_apply, Cert.KernelIdeal.Arr.arr4_apply m c 0 k, Cert.KernelIdeal.Arr.arr4_apply m c 1 k,
    sum_halves, Cert.KernelIdeal.Blocks.sumsq_tiles]

end Cert.KernelIdeal.Stats

end
-- ==== Proof.RefRunRaw.lean ====
/-
  The reference program's run, with its result left as the fold of its 130 host operations: every weakly fair
  execution terminates, the scalar result buffer holds what the operations, applied in order to the launch contents,
  leave in it, and the two argument arrays are unchanged (no operation writes them). The fold is opened later only
  as far as the proof needs: up to the three class statistics, and then along the operations both programs share.
-/
import proofs.«416220_j13005160973096_3_alg».proof.Proof.RefRun

noncomputable section

namespace Cert.ReferenceIdeal.RunRaw

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 8192 in
set_option maxHeartbeats 52000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = after (ops (F := F)) (launchContents m c) (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v79,
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RunRaw

end
-- ==== Proof.RefScatterLemmas.lean ====
/-
  Rows, segments and classes under the reference's two accumulating scatters, at the ideal instance.
  An accumulating scatter adds to element `i` of its operand every update element whose result index is `i`. Under
  the scatter of a `[2000000]` vector into `[129]` the update of row `r` has the result index `s` exactly when the
  index word of row `r`, read as a signed integer and not clamped, is `s`; under the scatter of a `[2000000, 64]`
  matrix into `[129, 64]` the update element `(r, c)` has the result index `(s, e)` exactly when that word is `s` and
  `c = e` (a word outside 0..128 lands nowhere). The index word of row `r` is its segment: the label where the label
  is non-negative and 128 otherwise, so the segment is a class `k < 128` exactly when the label word is `k`.
  Beside these: the scatter read at an element as a sum over all update indices of an if-then-else, a sum over a
  rank-1 index set as the sum over its coordinate, a scalar constant spread over a shape, and the word of the number one.
-/
import proofs.«416220_j13005160973096_3_alg».proof.Proof.RefTerms
import proofs.«416220_j13005160973096_3_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

noncomputable section

open scoped BigOperators

namespace Cert.ReferenceIdeal.Scatter

open Cert.ReferenceIdeal Cert.ReferenceIdeal.Gen Idealize.ShloMosaic Idealize.ShloMosaic.ValueIdx

/-- The dimension numbers of the scatter of a `[2000000]` vector into `[129]` by a `[2000000, 1]` index column. -/
abbrev d1 := scatter_S129_S2000000x1_S2000000_n_0_0_1
/-- The dimension numbers of the scatter of a `[2000000, 64]` matrix into `[129, 64]` by the same index column. -/
abbrev d2 := scatter_S129x64_S2000000x1_S2000000x64_1_0_0_1

/-! ## Which segment a row lands on: the scatter of a vector of rows -/

/-- The window of update row `r` starts at its index word `(r, 0)`, read signed. -/
theorem d1_start (r : Fin 2000000) (idx : IVec S2000000x1 32) (a : Fin S129.rank) :
    d1.start (ix1 r) idx a = (idx (ix2 r (0 : Fin 1))).toInt := by
  obtain rfl : a = 0 := Subsingleton.elim _ _
  unfold ScatterDims.start
  rw [dif_pos (show (0 : Fin 1) ∈ d1.scatterDimsToOperandDims from List.mem_singleton.mpr rfl)]
  congr 2
  funext b; refine Fin.ext ?_
  match b with
  | ⟨0, _⟩ => rfl
  | ⟨1, _⟩ => rfl

/-- The operand's one axis is an inserted window axis: the window coordinate on it is zero. -/
theorem d1_window (j : S2000000.Idx) (a : Fin S129.rank) : d1.window j a = 0 := by
  obtain rfl : a = 0 := Subsingleton.elim _ _
  unfold ScatterDims.window
  rw [dif_neg (by decide)]

/-- Update row `r` lands on segment `s` exactly when its index word, read signed, is `s`. -/
theorem d1_resultIdx (r : Fin 2000000) (idx : IVec S2000000x1 32) (s : Fin 129) :
    d1.resultIdx? (ix1 r) idx = some (ix1 s) ↔ (idx (ix2 r (0 : Fin 1))).toInt = (s.val : ℤ) := by
  unfold ScatterDims.resultIdx?
  constructor
  · intro h
    split at h
    · rename_i hr
      have h1 : ((d1.start (ix1 r) idx 0 + d1.window (ix1 r) 0).toNat) = s.val :=
        congrArg Fin.val (congrFun (Option.some.inj h) 0)
      have hr0 := (hr 0).1
      rw [d1_start, d1_window] at hr0 h1
      omega
    · exact absurd h (by simp)
  · intro h
    have hs : (s.val : ℤ) < 129 := by have := s.isLt; omega
    have hr : ∀ a, 0 ≤ d1.start (ix1 r) idx a + d1.window (ix1 r) a
        ∧ d1.start (ix1 r) idx a + d1.window (ix1 r) a < S129.size a := by
      intro a
      obtain rfl : a = 0 := Subsingleton.elim _ _
      rw [d1_start, d1_window]
      change 0 ≤ (idx (ix2 r (0 : Fin 1))).toInt + ((0 : ℕ) : ℤ)
        ∧ (idx (ix2 r (0 : Fin 1))).toInt + ((0 : ℕ) : ℤ) < ((129 : ℕ) : ℤ)
      omega
    rw [dif_pos hr]
    congr 1
    funext a
    obtain rfl : a = 0 := Subsingleton.elim _ _
    refine Fin.ext ?_
    change ((d1.start (ix1 r) idx 0 + d1.window (ix1 r) 0).toNat) = s.val
    rw [d1_start, d1_window]
    omega

/-! ## Which element an element lands on: the scatter of a matrix of rows -/

/-- On the segment axis the window of update element `(r, c)` starts at row `r`'s index word, read signed. -/
theorem d2_start0 (r : Fin 2000000) (c : Fin 64) (idx : IVec S2000000x1 32) :
    d2.start (ix2 r c) idx 0 = (idx (ix2 r (0 : Fin 1))).toInt := by
  unfold ScatterDims.start
  rw [dif_pos (show (0 : Fin 2) ∈ d2.scatterDimsToOperandDims from List.mem_singleton.mpr rfl)]
  congr 2
  funext b; refine Fin.ext ?_
  match b with
  | ⟨0, _⟩ => rfl
  | ⟨1, _⟩ => rfl

/-- On the column axis, which the index column does not name, the window starts at zero. -/
theorem d2_start1 (j : S2000000x64.Idx) (idx : IVec S2000000x1 32) : d2.start j idx 1 = 0 := by
  unfold ScatterDims.start
  rw [dif_neg (by decide)]

/-- The segment axis is an inserted window axis: the window coordinate on it is zero. -/
theorem d2_window0 (j : S2000000x64.Idx) : d2.window j 0 = 0 := by
  unfold ScatterDims.window
  rw [dif_neg (by decide)]

/-- On the column axis the window coordinate of update element `(r, c)` is `c`. -/
theorem d2_window1 (r : Fin 2000000) (c : Fin 64) : d2.window (ix2 r c) 1 = c.val := by
  unfold ScatterDims.window
  rw [dif_pos (by decide)]
  rfl

/-- Update element `(r, c)` lands on `(s, e)` exactly when row `r`'s index word, read signed, is `s` and the
    columns agree. -/
theorem d2_resultIdx (r : Fin 2000000) (c : Fin 64) (idx : IVec S2000000x1 32) (s : Fin 129) (e : Fin 64) :
    d2.resultIdx? (ix2 r c) idx = some (ix2 s e) ↔ (idx (ix2 r (0 : Fin 1))).toInt = (s.val : ℤ) ∧ c = e := by
  unfold ScatterDims.resultIdx?
  constructor
  · intro h
    split at h
    · rename_i hr
      have h0 : ((d2.start (ix2 r c) idx 0 + d2.window (ix2 r c) 0).toNat) = s.val :=
        congrArg Fin.val (congrFun (Option.some.inj h) 0)
      have h1 : ((d2.start (ix2 r c) idx 1 + d2.window (ix2 r c) 1).toNat) = e.val :=
        congrArg Fin.val (congrFun (Option.some.inj h) 1)
      have hr0 := (hr 0).1
      rw [d2_start0, d2_window0] at hr0 h0
      rw [d2_start1, d2_window1] at h1
      exact ⟨by omega, Fin.ext (by omega)⟩
    · exact absurd h (by simp)
  · rintro ⟨h, rfl⟩
    have hs : (s.val : ℤ) < 129 := by have := s.isLt; omega
    have hc : (c.val : ℤ) < 64 := by have := c.isLt; omega
    have hr : ∀ a, 0 ≤ d2.start (ix2 r c) idx a + d2.window (ix2 r c) a
        ∧ d2.start (ix2 r c) idx a + d2.window (ix2 r c) a < S129x64.size a := by
      intro a
      match a with
      | ⟨0, _⟩ =>
        change 0 ≤ d2.start (ix2 r c) idx 0 + d2.window (ix2 r c) 0
          ∧ d2.start (ix2 r c) idx 0 + d2.window (ix2 r c) 0 < ((129 : ℕ) : ℤ)
        rw [d2_start0, d2_window0]
        omega
      | ⟨1, _⟩ =>
        change 0 ≤ d2.start (ix2 r c) idx 1 + d2.window (ix2 r c) 1
          ∧ d2.start (ix2 r c) idx 1 + d2.window (ix2 r c) 1 < ((64 : ℕ) : ℤ)
        rw [d2_start1, d2_window1]
        omega
    rw [dif_pos hr]
    congr 1
    funext a
    refine Fin.ext ?_
    match a with
    | ⟨0, _⟩ =>
      change ((d2.start (ix2 r c) idx 0 + d2.window (ix2 r c) 0).toNat) = s.val
      rw [d2_start0, d2_window0]
      omega
    | ⟨1, _⟩ =>
      change ((d2.start (ix2 r c) idx 1 + d2.window (ix2 r c) 1).toNat) = c.val
      rw [d2_start1, d2_window1]
      omega

/-! ## The segment word -/

/-- The select on "the label is at least 0" is the `if` on the label's sign. -/
theorem segWord_eq (w : BitVec 32) :
    Scalar.select (IntOp.cmpi .sge w 0#32) w 128#32 = if (0 : ℤ) ≤ w.toInt then w else 128#32 := by
  unfold Scalar.select IntOp.cmpi
  simp only [BitVec.sle_eq_decide, BitVec.toInt_zero]
  by_cases h : (0 : ℤ) ≤ w.toInt
  · simp only [h, decide_true, BitVec.ofBool_true, if_true]
  · simp only [h, decide_false, BitVec.ofBool_false, if_false]
    exact if_neg (by decide)

/-- The segment word of a label `w` (the label where it is non-negative, else 128), read signed, is the class number
    `k < 128` exactly when `w` is the word `k`: 128 is no class, and a negative word is no `k`. -/
theorem segWord_toInt (w : BitVec 32) (k : ℕ) (hk : k < 128) :
    (Scalar.select (IntOp.cmpi .sge w 0#32) w 128#32).toInt = (k : ℤ) ↔ w = BitVec.ofNat 32 k := by
  have hw := w.isLt
  rw [segWord_eq, BitVec.toNat_eq, BitVec.toNat_ofNat]
  by_cases h : (0 : ℤ) ≤ w.toInt
  · rw [if_pos h]
    rw [BitVec.toInt_eq_toNat_cond] at h ⊢
    split at h <;> omega
  · rw [if_neg h]
    rw [BitVec.toInt_eq_toNat_cond] at h
    have h128 : (128#32 : BitVec 32).toInt = 128 := by decide
    rw [h128]
    split at h <;> omega

/-- The segment column at row `r`: the label where it is non-negative, else 128. -/
theorem seg_apply (lab : IVec S2000000 32) (r : Fin 2000000) :
    Terms.seg lab (ix2 r (0 : Fin 1))
      = Scalar.select (IntOp.cmpi .sge (lab (ix1 r)) 0#32) (lab (ix1 r)) 128#32 := by
  unfold Terms.seg
  refine (broadcastInDim_apply _ _ _ (ix2 r (0 : Fin 1)) (ix1 r) (fun a => ?_)).trans ?_
  · obtain rfl : a = 0 := Subsingleton.elim _ _
    show r.val = if (2000000 : ℕ) = 1 then 0 else r.val
    rw [if_neg (by decide)]
  · rfl

/-- Row `r`'s segment is the class `k < 128` exactly when its label is the word `k`. -/
theorem seg_toInt (lab : IVec S2000000 32) (r : Fin 2000000) (k : Fin 128) :
    (Terms.seg lab (ix2 r (0 : Fin 1))).toInt = (k.val : ℤ) ↔ lab (ix1 r) = BitVec.ofNat 32 k.val := by
  rw [seg_apply]; exact segWord_toInt _ _ k.isLt

/-! ## The pieces of a scatter -/

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]; rfl

/-- The word `0x3F800000` is the number one. -/
theorem ofBits_one_f32 : Ideal.ofBits .f32 0x3F800000#32 = 1 := by
  simp [Ideal.ofBits, Ideal.ieee, -EReal.coe_mul]; norm_num

/-- The accumulating scatter read at an element: the operand's element plus every update element that lands on it. -/
theorem scatterAdd_apply {s si su : Shape} (d : ScatterDims s si su) {w : ℕ} (x : FVec Ideal s .f32)
    (idx : IVec si w) (upd : FVec Ideal su .f32) (i : s.Idx) :
    Host.scatterAdd d x idx upd i = x i + ∑ j, if d.resultIdx? j idx = some i then upd j else 0 := by
  show Ideal.hostScatterAdd d x idx upd i = _
  unfold Ideal.hostScatterAdd
  rw [Finset.sum_filter]

/-- A scalar constant spread over a shape reads, everywhere, the number its word encodes. -/
theorem splat_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply _ _ _ j ix0 (fun a => a.elim0)

end Cert.ReferenceIdeal.Scatter

end
-- ==== Proof.RefScatter.lean ====
/-
  The reference's counts read at a class, at the ideal instance, as the plain number of rows of that class.
  The counts are ones scattered by segment into 129 zeros, the first 128 segments kept. An accumulating scatter adds
  to element `i` of its operand every update element whose result index is `i`; row `r` lands on the class `k < 128`
  exactly when its label word is `k` (its segment is the label where that is non-negative and 128 otherwise, read as
  a signed word and not clamped); the operand is zero and every update is one. So element `k` is the sum over all
  rows of the indicator of "the label of the row is `k`".
-/
import proofs.«416220_j13005160973096_3_alg».proof.Proof.RefScatterLemmas

noncomputable section

open scoped BigOperators

namespace Cert.ReferenceIdeal.Scatter

open Cert.ReferenceIdeal Cert.ReferenceIdeal.Gen Idealize.ShloMosaic Idealize.ShloMosaic.ValueIdx

/-- The reference's counts at class `k`: the number of rows labelled `k`. -/
theorem counts_apply (lab : IVec S2000000 32) (k : Fin 128) :
    Terms.counts (F := Ideal) lab (ix1 k) = Cert.Spec.counts lab k := by
  have hk : k.val < 129 := by have := k.isLt; omega
  unfold Terms.counts
  -- the first 128 segments are kept: element `k` of the cut is element `k` of the scatter
  rw [extractStridedSlice_apply _ _ _ (ix1 k) (ix1 (⟨k.val, hk⟩ : Fin 129)) (fun a => by
    obtain rfl : a = 0 := Subsingleton.elim _ _
    exact (Nat.zero_add _).symm)]
  -- zero plus the sum, over all rows, of the update where the row lands on `k`
  rw [scatterAdd_apply, sum_idx1, splat_apply, Ideal.ofBits_zero_f32, zero_add]
  unfold Cert.Spec.counts Cert.Spec.ind
  refine Finset.sum_congr rfl fun r _ => ?_
  -- row `r` lands on `k` exactly when its label is the word `k`, and its update is one
  refine if_congr ((d1_resultIdx r _ _).trans (seg_toInt lab r k)) ?_ rfl
  rw [splat_apply, ofBits_one_f32]

end Cert.ReferenceIdeal.Scatter

end
-- ==== Proof.RefScatterSums.lean ====
/-
  The reference's sums scatter read at a class and a column, at the ideal instance. The updates are the feature rows
  themselves: update element (r, c) lands at (segment of row r, c), so class `k`, column `d` receives column `d` of
  exactly the rows whose label word is `k`; the operand is zero and the first 128 segments are kept.
-/
import proofs.«416220_j13005160973096_3_alg».proof.Proof.RefScatterLemmas

noncomputable section

open scoped BigOperators

namespace Cert.ReferenceIdeal.Scatter2

open Cert.ReferenceIdeal Cert.ReferenceIdeal.Gen Idealize.ShloMosaic Idealize.ShloMosaic.ValueIdx
open Cert.ReferenceIdeal.Scatter

/-- Within row `r`, the update elements that land on `(k, d)`: the one in column `d`, when the row's label is `k`. -/
theorem row_collapse (z : FVec Ideal S2000000x64 .f32) (lab : IVec S2000000 32) (k : Fin 128) (hk : k.val < 129)
    (d : Fin 64) (r : Fin 2000000) :
    (∑ c : Fin 64, if d2.resultIdx? (ix2 r c) (Terms.seg lab) = some (ix2 (⟨k.val, hk⟩ : Fin 129) d)
        then z (ix2 r c) else 0)
      = if lab (ix1 r) = BitVec.ofNat 32 k.val then z (ix2 r d) else 0 := by
  have hc : ∀ c : Fin 64, (if d2.resultIdx? (ix2 r c) (Terms.seg lab) = some (ix2 (⟨k.val, hk⟩ : Fin 129) d)
        then z (ix2 r c) else 0)
      = if c = d then (if lab (ix1 r) = BitVec.ofNat 32 k.val then z (ix2 r c) else 0) else 0 := by
    intro c
    have hiff : d2.resultIdx? (ix2 r c) (Terms.seg lab) = some (ix2 (⟨k.val, hk⟩ : Fin 129) d)
        ↔ (c = d ∧ lab (ix1 r) = BitVec.ofNat 32 k.val) :=
      (d2_resultIdx r c _ _ d).trans (and_comm.trans (and_congr_right' (seg_toInt lab r k)))
    exact (if_congr hiff rfl rfl).trans (ite_and _ _ _ _)
  rw [Finset.sum_congr rfl (fun c _ => hc c), Finset.sum_ite_eq']
  simp only [Finset.mem_univ, if_true]

/-- The reference's sums at class `k`, column `d`: the sum of column `d` over the rows labelled `k`. -/
theorem sums_apply (z : FVec Ideal S2000000x64 .f32) (lab : IVec S2000000 32) (k : Fin 128) (d : Fin 64) :
    Terms.sums (F := Ideal) z lab (ix2 k d) = Cert.Spec.sums z lab k d := by
  have hk : k.val < 129 := by have := k.isLt; omega
  unfold Terms.sums
  -- the first 128 segments are kept: element `(k, d)` of the cut is element `(k, d)` of the scatter
  rw [extractStridedSlice_apply _ _ _ (ix2 k d) (ix2 (⟨k.val, hk⟩ : Fin 129) d) (fun a => by
    match a with
    | ⟨0, _⟩ => exact (Nat.zero_add _).symm
    | ⟨1, _⟩ => exact (Nat.zero_add _).symm)]
  -- zero plus the sum, over all elements `(r, c)`, of the element where it lands on `(k, d)`
  rw [scatterAdd_apply, sum_idx2, splat_apply, Ideal.ofBits_zero_f32, zero_add]
  unfold Cert.Spec.sums
  refine Finset.sum_congr rfl fun r _ => ?_
  rw [row_collapse, Cert.Spec.ind_mul]

end Cert.ReferenceIdeal.Scatter2

end
-- ==== Proof.RefScatterSumsq.lean ====
/-
  The reference's sums-of-squares scatter read at a class, at the ideal instance. The updates are the rows' squared
  norms (each row's products with itself summed over its 64 columns); update element r lands at the segment of row r,
  so class `k` receives the squared norms of exactly the rows whose label word is `k`; the operand is zero and the
  first 128 segments are kept.
-/
import proofs.«416220_j13005160973096_3_alg».proof.Proof.RefScatterLemmas
import proofs.«416220_j13005160973096_3_alg».proof.Proof.LibColumn

noncomputable section

open scoped BigOperators

namespace Cert.ReferenceIdeal.Scatter3

open Cert.ReferenceIdeal Cert.ReferenceIdeal.Gen Idealize.ShloMosaic Idealize.ShloMosaic.ValueIdx
open Cert.ReferenceIdeal.Scatter

/-- The squared norm of row `r`: the host's sum, from zero, of the squares along the row. -/
theorem rowNorm_apply (z : FVec Ideal S2000000x64 .f32) (r : Fin 2000000) :
    Host.reduceAdd (mulf z z) (constant (F := Ideal) S_ .f32 0x00000000#32) reducesTo_S2000000x64_S2000000_d1 h_S_
        (ix1 r)
      = ∑ c : Fin 64, z (ix2 r c) * z (ix2 r c) := by
  have hR : S2000000x64.Reduces [1] S2000000 := by decide
  show Ideal.hostReduceAdd reducesTo_S2000000x64_S2000000_d1 (mulf z z) (Ideal.ofBits .f32 0x00000000#32) (ix1 r) = _
  rw [Ideal.hostReduceAdd_single _ hR, Ideal.ofBits_zero_f32, zero_add]
  refine Finset.sum_congr rfl fun c _ => ?_
  rw [Cert.LibColumn.lift_axis1 hR r c]
  rfl

/-- The reference's sums of squares at class `k`: the sum of the squared norms of the rows labelled `k`. -/
theorem sumsq_apply (z : FVec Ideal S2000000x64 .f32) (lab : IVec S2000000 32) (k : Fin 128) :
    Terms.sumsq (F := Ideal) z lab (ix1 k) = Cert.Spec.sumsq z lab k := by
  have hk : k.val < 129 := by have := k.isLt; omega
  unfold Terms.sumsq
  -- the first 128 segments are kept: element `k` of the cut is element `k` of the scatter
  rw [extractStridedSlice_apply _ _ _ (ix1 k) (ix1 (⟨k.val, hk⟩ : Fin 129)) (fun a => by
    obtain rfl : a = 0 := Subsingleton.elim _ _
    exact (Nat.zero_add _).symm)]
  -- zero plus the sum, over all rows, of the row's squared norm where the row lands on `k`
  rw [scatterAdd_apply, sum_idx1, splat_apply, Ideal.ofBits_zero_f32, zero_add]
  unfold Cert.Spec.sumsq
  refine Finset.sum_congr rfl fun r _ => ?_
  rw [Cert.Spec.ind_mul]
  exact if_congr ((d1_resultIdx r _ _).trans (seg_toInt lab r k)) (rowNorm_apply z r) rfl

end Cert.ReferenceIdeal.Scatter3

end
-- ==== Proof.lean ====
/-
  The certificate of the segment-reduce kernel against its jnp reference.
  Both programs compute, from 2000000 feature rows of 64 columns and an int32 label per row, three statistics of the
  128 classes — how many rows carry each class's label, the sum of those rows, the sum of their squared norms — and
  then the same scalar loss from them. The kernel gets the statistics by multiplying the one-hot matrix of each tile
  of 20000 labels into the tile's rows, their squared norms and a column of ones, accumulating over the 50 tiles of
  each half of the rows and adding the two halves; the reference by three accumulating scatters into 129 segments
  (negative labels sent to the extra one) cut back to 128. At the ideal instance both are the plain sums over the rows
  whose label word is the class number: a label outside 0..127 matches no one-hot column and reaches no kept segment.
  Sums of extended reals may be regrouped freely and 0 * x = 0 for every extended real x, so nothing here needs the
  inputs finite. The frames: the kernel's program through the pipeline launch theorem for a region followed by host
  lines, at either instance; the reference's through its operations' run. The idealization rewrote no operation.
-/
import proofs.«416220_j13005160973096_3_alg».proof.Defs
import proofs.«416220_j13005160973096_3_alg».proof.Proof.Gen.Kernel
import proofs.«416220_j13005160973096_3_alg».proof.Proof.Gen.KernelIdeal
import proofs.«416220_j13005160973096_3_alg».proof.Proof.Gen.ReferenceIdeal
import proofs.«416220_j13005160973096_3_alg».proof.Proof.Gen.Pre_finite_inputs
import proofs.«416220_j13005160973096_3_alg».proof.Proof.KFrame
import proofs.«416220_j13005160973096_3_alg».proof.Proof.KIFrame
import proofs.«416220_j13005160973096_3_alg».proof.Proof.KIStats
import proofs.«416220_j13005160973096_3_alg».proof.Proof.RefRunRaw
import proofs.«416220_j13005160973096_3_alg».proof.Proof.RefScatter
import proofs.«416220_j13005160973096_3_alg».proof.Proof.RefScatterSums
import proofs.«416220_j13005160973096_3_alg».proof.Proof.RefScatterSumsq
import proofs.«416220_j13005160973096_3_alg».proof.Proof.TailBridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.RunRaw.run (F := Ideal) m ρ)

/-- The three statistics agree, class by class, because each side is the plain sum over the rows labelled with the class. -/
theorem algebraic : Cert.algebraic_KernelIdeal_ReferenceIdeal := by
  intro m ρ m' ρ' _ hagree
  refine ⟨fun c => Pipeline.afterTail₀ Cert.KernelIdeal.cfgs (Cert.KernelIdeal.Frm.dats m) 0 (Cert.KernelIdeal.Frm.V0 m)
      Cert.KernelIdeal.Frm.tailOps c Cert.KernelIdeal.main_v68, Cert.KernelIdeal.Frm.run_full m ρ, ?_⟩
  refine (θ_run Cert.ReferenceIdeal.defs _ _).mono (fun _ h c => ⟨(h c).1.trans ?_, (h c).2⟩)
    (Cert.ReferenceIdeal.RunRaw.run (F := Ideal) m' ρ')
  symm
  unfold Pipeline.afterTail₀
  refine Cert.TailBridge.bridge _ m' c ?_ ?_ ?_
  · rw [Pipeline.withArrays_arr Cert.KernelIdeal.spec0 Cert.KernelIdeal.Gen.launch0.win.arr_inj c _ _ 2]
    funext i
    obtain ⟨k, rfl⟩ : ∃ k : Fin 128, i = ix1 k := ⟨i 0, eq_ix1 i⟩
    rw [Cert.KernelIdeal.Stats.kcounts_apply, Cert.ReferenceIdeal.Scatter.counts_apply, (hagree c).2]
  · rw [Pipeline.withArrays_arr Cert.KernelIdeal.spec0 Cert.KernelIdeal.Gen.launch0.win.arr_inj c _ _ 3]
    funext i
    obtain ⟨k, d, rfl⟩ : ∃ (k : Fin 128) (d : Fin 64), i = ix2 k d := ⟨i 0, i 1, eq_ix2 i⟩
    rw [Cert.KernelIdeal.Stats.ksums_apply, Cert.ReferenceIdeal.Scatter2.sums_apply, (hagree c).1, (hagree c).2]
  · rw [Pipeline.withArrays_arr Cert.KernelIdeal.spec0 Cert.KernelIdeal.Gen.launch0.win.arr_inj c _ _ 4]
    funext i
    obtain ⟨k, rfl⟩ : ∃ k : Fin 128, i = ix1 k := ⟨i 0, eq_ix1 i⟩
    rw [Cert.KernelIdeal.Stats.ksumsq_apply, Cert.ReferenceIdeal.Scatter3.sumsq_apply, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
